-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S2000x128 : Shape := ⟨2, ![2000, 128]⟩
abbrev S2000x64 : Shape := ⟨2, ![2000, 64]⟩
abbrev S10000x16 : Shape := ⟨2, ![10000, 16]⟩
abbrev S400x10000 : Shape := ⟨2, ![400, 10000]⟩
abbrev S400x16 : Shape := ⟨2, ![400, 16]⟩
abbrev S400x64 : Shape := ⟨2, ![400, 64]⟩

abbrev nBuf : Space → Nat
  | .hbm => 8
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x16, .f32⟩
  | .hbm, ⟨6, _⟩ => ⟨S10000x16, .f32⟩
  | .hbm, ⟨7, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S64x16, .f32⟩
  | .local _ .vmem, ⟨9, _⟩ => ⟨S400x16, .f32⟩
  | .local _ .vmem, ⟨10, _⟩ => ⟨S400x16, .f32⟩
  | .local _ .vmem, ⟨11, _⟩ => ⟨S400x10000, .f32⟩
  | .local _ .vmem, ⟨12, _⟩ => ⟨S400x10000, .f32⟩
  | .local _ .vmem, ⟨13, _⟩ => ⟨S10000x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S400x16, .f32⟩
  | .local _ .vmem, ⟨18, _⟩ => ⟨S10000x16, .f32⟩
  | .local _ .vmem, ⟨19, _⟩ => ⟨S400x10000, .f32⟩
  | .local _ .vmem, ⟨20, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S400x16_S400x16 : S400x16.ShapeCasts S400x16
  dot_S2000x128_S128x64_S2000x64_1_0_0_1_n_n_wf : DotDims.WF S2000x128 S128x64 S2000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩
abbrev S16x10000 : Shape := ⟨2, ![16, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S16x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.R0.lean ====
/-
  The first matrix product, `s1 = x · W1`, as a pipelined region: the grid has five points, point `t` reads rows
  `2000 t … 2000 t + 1999` of `x` and all of `W1`, and writes the same rows of `s1`. This module states, at any
  contents `V` of the core's buffers when the region is entered, what each window's staging buffer holds when the
  body runs at a point (the block of the array the window stages), what the body leaves in the output's staging
  buffer (the product of the two blocks it loaded), and that the body, run on those buffers, does exactly that
  and touches nothing else: the obligation the pipeline's rule asks of a body, at every point.
-/
import proofs.«103521_g52742198395357_cont_9to1_m_1401_3_alg».proof.Proof.Gen.Kernel.Launch
import proofs.«103521_g52742198395357_cont_9to1_m_1401_3_alg».proof.Proof.Gen.Kernel.Skeleton
import proofs.«103521_g52742198395357_cont_9to1_m_1401_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of `x`'s window holds the window's block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of `W1`'s window holds all of `W1` at every point: it is fetched once, its block index never
    moves, and the body leaves it as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev rx0 : Rect S2000x128 := Rect.unit (s := S2000x128) ![0, 0] S2000x128.size inb_S2000x128_S2000x128_0_0
abbrev rw0 : Rect S128x64 := Rect.unit (s := S128x64) ![0, 0] S128x64.size inb_S128x64_S128x64_0_0
abbrev ro0 : Rect S2000x64 := Rect.unit (s := S2000x64) ![0, 0] S2000x64.size inb_S2000x64_S2000x64_0_0

/-! ## What the body leaves in the output's staging buffer -/

/-- The output's staging buffer after the body: its one store, the product of the two loaded blocks. -/
def out0_2 (x0 : Vec F S2000x128 .f32) (x1 : Vec F S128x64 .f32) : Vec F S2000x64 .f32 :=
  View.canon [⟨ro0, k0_pay1 (View.ld x0 rx0) (View.ld x1 rw0)⟩]

/-- The one store covers the buffer. -/
theorem cover0_2 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw1_body i arg1 harg1 arg2 harg2 arg3 harg3) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's staging buffer still at its block and the output's at the product of the two blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so `sound_kernel0` applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second region, `s2 = relu (adj · s1) · W2`: the grid has 25 points, point `t` reads rows `400 t … 400 t + 399`
  of `adj`, all of `s1` and all of `W2`, and writes the same rows of `s2`. As for the first region this module states,
  at any contents `V` of the core's buffers when the region is entered, what each staging buffer holds when the body
  runs, what the body leaves in the output's staging buffer, and that the body does exactly that: the obligation
  the pipeline's rule asks of a body, at every point.
-/
import proofs.«103521_g52742198395357_cont_9to1_m_1401_3_alg».proof.Proof.Gen.Kernel.Launch
import proofs.«103521_g52742198395357_cont_9to1_m_1401_3_alg».proof.Proof.Gen.Kernel.Skeleton
import proofs.«103521_g52742198395357_cont_9to1_m_1401_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of `adj`'s window holds the window's block at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of `s1`'s window holds all of `s1` at every point: fetched once, its block index never moves,
    and the body leaves it as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for `W2`'s window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev ra1 : Rect S400x10000 := Rect.unit (s := S400x10000) ![0, 0] S400x10000.size inb_S400x10000_S400x10000_0_0
abbrev rs1 : Rect S10000x64 := Rect.unit (s := S10000x64) ![0, 0] S10000x64.size inb_S10000x64_S10000x64_0_0
abbrev rw1 : Rect S64x16 := Rect.unit (s := S64x16) ![0, 0] S64x16.size inb_S64x16_S64x16_0_0
abbrev ro1 : Rect S400x16 := Rect.unit (s := S400x16) ![0, 0] S400x16.size inb_S400x16_S400x16_0_0

/-! ## What the body leaves in the output's staging buffer -/

/-- The output's staging buffer after the body: its one store, `relu (a · s) · w` of the three loaded blocks. -/
def out1_3 (x0 : Vec F S400x10000 .f32) (x1 : Vec F S10000x64 .f32) (x2 : Vec F S64x16 .f32) : Vec F S400x16 .f32 :=
  View.canon [⟨ro1, k1_pay1 (View.ld x0 ra1) (View.ld x1 rs1) (View.ld x2 rw1)⟩]

/-- The one store covers the buffer. -/
theorem cover1_3 (p0 : Vec F S400x16 .f32) (y : S400x16.Idx) :
    ∃ pc ∈ ([⟨ro1, p0⟩] : List (View.Piece (Elt F) S400x16 .f32)), y ∈ pc.1.set :=
  View.cover_of_tiled [⟨ro1, p0⟩] S400x16.size (by rfl) y

/-! ## The body's triple -/

set_option maxHeartbeats 1000000 in
/-- The body on whole staging memrefs, the inputs' at contents `x0`, `x1`, `x2` and the output's at anything, runs to the
    continuation holding the inputs' as they were and the output's at `out1_3 x0 x1 x2`. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S64x16 .f32) (harg3 : arg3.IsWhole) (arg4 : Memref sig .tc .vmem S400x16 .f32) (harg4 : arg4.IsWhole)
    (x0 : Vec F S400x10000 .f32) (x1 : Vec F S10000x64 .f32) (x2 : Vec F S64x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_body i arg1 harg1 arg2 harg2 arg3 harg3 arg4 harg4) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region on core `c`: the arrays as the region finds them; after the body at point `t` each
    input's staging buffer still at its block and the output's at `out1_3` of the three blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so `sound_kernel1` applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The third region, `z = relu (adj · s2)`: the grid has 25 points, point `t` reads rows `400 t … 400 t + 399` of `adj`
  and all of `s2`, and writes the same rows of `z`. As for the earlier regions this module states, at any contents `V`
  of the core's buffers when the region is entered, what each staging buffer holds when the body runs, what the
  body leaves in the output's staging buffer, and that the body does exactly that, at every point.
-/
import proofs.«103521_g52742198395357_cont_9to1_m_1401_3_alg».proof.Proof.Gen.Kernel.Launch
import proofs.«103521_g52742198395357_cont_9to1_m_1401_3_alg».proof.Proof.Gen.Kernel.Skeleton
import proofs.«103521_g52742198395357_cont_9to1_m_1401_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of `adj`'s window holds the window's block at every point: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of `s2`'s window holds all of `s2` at every point: fetched once, its block index never moves,
    and the body leaves it as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev ra2 : Rect S400x10000 := Rect.unit (s := S400x10000) ![0, 0] S400x10000.size inb_S400x10000_S400x10000_0_0
abbrev rs2 : Rect S10000x16 := Rect.unit (s := S10000x16) ![0, 0] S10000x16.size inb_S10000x16_S10000x16_0_0
abbrev ro2 : Rect S400x16 := Rect.unit (s := S400x16) ![0, 0] S400x16.size inb_S400x16_S400x16_0_0

/-! ## What the body leaves in the output's staging buffer -/

/-- The output's staging buffer after the body: its one store, `relu (a · s)` of the two loaded blocks. -/
def out2_2 (x0 : Vec F S400x10000 .f32) (x1 : Vec F S10000x16 .f32) : Vec F S400x16 .f32 :=
  View.canon [⟨ro2, k2_pay1 (View.ld x0 ra2) (View.ld x1 rs2)⟩]

/-- The one store covers the buffer. -/
theorem cover2_2 (p0 : Vec F S400x16 .f32) (y : S400x16.Idx) :
    ∃ pc ∈ ([⟨ro2, p0⟩] : List (View.Piece (Elt F) S400x16 .f32)), y ∈ pc.1.set :=
  View.cover_of_tiled [⟨ro2, p0⟩] S400x16.size (by rfl) y

/-! ## The body's triple -/

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords)
    (arg1 : Memref sig .tc .vmem S400x10000 .f32) (harg1 : arg1.IsWhole) (arg2 : Memref sig .tc .vmem S10000x16 .f32) (harg2 : arg2.IsWhole)
    (arg3 : Memref sig .tc .vmem S400x16 .f32) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__pass2_body i arg1 harg1 arg2 harg2 arg3 harg3) K := by
  simp only [cc2__pass2_body_eq_skeleton]; unfold cc2__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's staging buffer still at its block and the output's at `out2_2` of the two blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so `sound_kernel2` applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  The fourth region, `a_bar = z · zᵀ`: the grid has 25 points, point `t` reads rows `400 t … 400 t + 399` of `z`
  through one window and all of `z` through another, and writes the same rows of `a_bar`. Two windows of this region
  read ONE array, so the core cannot hold that array whole for each: the first window holds the left half of the
  array's share and the second the right half, which is all a window that only reads needs. The rest is as for the
  earlier regions: at any contents `V` of the core's buffers when the region is entered, what each staging buffer
  holds when the body runs, what the body leaves in the output's staging buffer, and that the body does exactly that.
-/
import proofs.«103521_g52742198395357_cont_9to1_m_1401_3_alg».proof.Proof.Gen.Kernel.Launch
import proofs.«103521_g52742198395357_cont_9to1_m_1401_3_alg».proof.Proof.Gen.Kernel.Skeleton
import proofs.«103521_g52742198395357_cont_9to1_m_1401_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the row-block window holds the window's block at every point: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the whole-array window holds all of `z` at every point: fetched once, its block index never
    moves, and the body leaves it as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev rz3 : Rect S400x16 := Rect.unit (s := S400x16) ![0, 0] S400x16.size inb_S400x16_S400x16_0_0
abbrev rs3 : Rect S10000x16 := Rect.unit (s := S10000x16) ![0, 0] S10000x16.size inb_S10000x16_S10000x16_0_0
abbrev ro3 : Rect S400x10000 := Rect.unit (s := S400x10000) ![0, 0] S400x10000.size inb_S400x10000_S400x10000_0_0

/-! ## What the body leaves in the output's staging buffer -/

/-- The output's staging buffer after the body: its one store, the product of the row block with the transpose of
    the whole array. -/
def out3_2 (x0 : Vec F S400x16 .f32) (x1 : Vec F S10000x16 .f32) : Vec F S400x10000 .f32 :=
  View.canon [⟨ro3, k3_pay1 (View.ld x0 rz3) (View.ld x1 rs3)⟩]

/-- The one store covers the buffer. -/
theorem cover3_2 (p0 : Vec F S400x10000 .f32) (y : S400x10000.Idx) :
    ∃ pc ∈ ([⟨ro3, p0⟩] : List (View.Piece (Elt F) S400x10000 .f32)), y ∈ pc.1.set :=
  View.cover_of_tiled [⟨ro3, p0⟩] S400x10000.size (by rfl) y

/-! ## The body's triple -/

set_option maxHeartbeats 1000000 in
/-- The body on whole staging memrefs, the inputs' at contents `x0`, `x1` and the output's at anything, runs to the
    continuation holding the inputs' as they were and the output's at `out3_2 x0 x1`. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__abar_body i arg1 harg1 arg2 harg2 arg3 harg3) K := by
  simp only [cc3__abar_body_eq_skeleton]; unfold cc3__abar_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input's staging buffer still at its block and the output's at `out3_2` of the two blocks; the invariant the scoped
    rest and the generator register, untouched; nothing owed. The two input windows read one array: the first holds
    the left half of its share, the second the right half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares the region holds its three arrays at. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' staging buffers hold their blocks, so `sound_kernel3` applies; the invariant
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole run. @main is four pipelined regions, one after the other, with no host operation between them. Between
  two regions the core's unscoped buffers hold: the four arguments as launched, and each intermediate array at what
  the region that writes it left there (the fold of its write-backs over its grid). This module names those contents
  at the five boundaries, gives each region its proof data at the contents it is entered from, states each region as
  a segment from one boundary to the next, and runs the four segments from the launch: every weakly fair execution
  terminates, nothing faults, and the final memory holds every unscoped buffer at the last boundary's contents.
  The fourth region reads one array through two windows: at its entry the array's points-to is split into its two
  half shares, one per window, and at its exit the halves are joined again.
-/
import proofs.«103521_g52742198395357_cont_9to1_m_1401_3_alg».proof.Proof.K.R0
import proofs.«103521_g52742198395357_cont_9to1_m_1401_3_alg».proof.Proof.K.R1
import proofs.«103521_g52742198395357_cont_9to1_m_1401_3_alg».proof.Proof.K.R2
import proofs.«103521_g52742198395357_cont_9to1_m_1401_3_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the first region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the third region. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the fourth region: the decoded adjacency at what the pipeline leaves, every other buffer as before (the
    region's two input windows read `z` and write nothing). -/
def W4 (c : Dev nD) : Valuation τ sig (Elt F) :=
  Function.update (W3 m c) (Proc.devRef .tc main_v3) ((dat3 (V3 m) c).arrAt 2 cfg3.N)
theorem W4_out (c : Dev nD) : W4 m c (Proc.devRef .tc main_v3) = (dat3 (V3 m) c).arrAt 2 cfg3.N := by
  unfold W4; exact Function.update_self ..
theorem W4_of_ne (c : Dev nD) (b : Ref sig .tc) (hb : b ≠ main_v3) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The fourth region's arrays among the unscoped buffers: one array, two readers -/

/-- The fourth region's windows stand on two arrays: `z` (read through two windows) and the decoded adjacency. -/
theorem arrRefs3 : (Finset.univ.image (Pipeline.arrRef spec3) : Finset (Ref sig .tc)) = ([main_v2, main_v3] : List (Ref sig .tc)).toFinset := by decide

/-- ENTRY of the fourth region: the core's unscoped buffers at `V` are the region's arrays at the shares its proof
    data name — `z`'s points-to split into its left half for the row-block window and its right half for the
    whole-array window, the output array whole — and the rest. -/
theorem entry3 (V : (c : Dev nD) → (b : Ref sig .tc) → Buf (Elt F) ((c : Thread nD τ).loc b)) (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [bigSep_W3]
  refine (Entails.of_eq (bigSep_eq_bigSepL_of_eq [main_v2, main_v3] arrRefs3 (by decide) _)).trans ?_
  rw [(arr_whole3 0).set_eq_univ, (arr_whole3 2).set_eq_univ]
  show iprop(((c : Thread nD τ).loc main_v2 ↦{fullShare} V c main_v2) ∗ ((c : Thread nD τ).loc main_v3 ↦{fullShare} V c main_v3))
    ⊢ iprop(((c : Thread nD τ).loc main_v2 ↦{fullShare.left} V c main_v2) ∗ ((c : Thread nD τ).loc main_v2 ↦{fullShare.right} V c main_v2)
        ∗ ((c : Thread nD τ).loc main_v3 ↦{fullShare} V c main_v3))
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-- EXIT of the fourth region: the halves joined again, the output array at what the pipeline left. -/
theorem exit3 (V V' : (c : Dev nD) → (b : Ref sig .tc) → Buf (Elt F) ((c : Thread nD τ).loc b)) (c : Dev nD)
    (hout : V' c main_v3 = (dat3 V c).arrAt 2 cfg3.N) (hrest : ∀ b : Ref sig .tc, b ≠ main_v3 → V' c b = V c b) :
    iprop((dat3 V c).arrays ((dat3 V c).arrAt · cfg3.N) ∗ Pipeline.unscopedRest spec3 c (V c)) ⊢ (unscopedBufs c (V' c) : sProp 𝕄) := by
  rw [Pipeline.unscopedBufs_split₀ cfgs 3 winFacts₀3.arr_unscoped c (V' c)]
  refine sep_mono ?_ (Entails.of_eq ?_)
  · unfold Pipeline.arrBufs Dat.arrays
    rw [bigSep_W3]
    refine BIBase.Entails.trans ?_ (Entails.of_eq (bigSep_eq_bigSepL_of_eq [main_v2, main_v3] arrRefs3 (by decide) _).symm)
    beta_reduce
    rw [(arr_whole3 0).set_eq_univ, (arr_whole3 2).set_eq_univ,
      show (dat3 V c).arrAt 0 cfg3.N = V c main_v2 from ((dat3 V c).arrAt_in 0 rfl _).trans (A_eq3 V c 0),
      show (dat3 V c).arrAt 1 cfg3.N = V c main_v2 from ((dat3 V c).arrAt_in 1 rfl _).trans (A_eq3 V c 1)]
    show iprop(((c : Thread nD τ).loc main_v2 ↦{fullShare.left} V c main_v2) ∗ ((c : Thread nD τ).loc main_v2 ↦{fullShare.right} V c main_v2)
        ∗ ((c : Thread nD τ).loc main_v3 ↦{fullShare} (dat3 V c).arrAt 2 cfg3.N))
      ⊢ iprop(((c : Thread nD τ).loc main_v2 ↦{fullShare} V' c main_v2) ∗ ((c : Thread nD τ).loc main_v3 ↦{fullShare} V' c main_v3))
    rw [hout, hrest main_v2 (by decide)]
    iintro ⟨Hl, Hr, Ho⟩
    isplitl [Hl Hr]
    · iapply (pointsTo_share (PosShare.mem_left_op_right fullShare)).2
      isplitl [Hl] <;> iassumption
    iexact Ho
  · unfold Pipeline.unscopedRest
    refine bigSep_congr fun b hb => ?_
    rw [hrest b fun e => (Finset.mem_sdiff.mp hb).2 (e ▸ Finset.mem_image.mpr ⟨2, Finset.mem_univ _, rfl⟩)]

/-! ## The regions as segments -/

set_option backward.isDefEq.respectTransparency.types false in
/-- The first region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W2`, left at `W3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth region over the thread state: entered from every unscoped buffer at `W3`, left at `W4`, which the
    launch reads at the end. Its arrays leave and rejoin the unscoped buffers by `entry3` and `exit3`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := entry3 (F := F) (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (F := F) (V3 m) (V4 m) c (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four segments in order: a region per pallas_call. -/
abbrev segs : List (Pipeline.Seg (pcfgs (F := F)) adm (pdats m) () defs₀ 𝒱₀ L lv) :=
  [ .region (reg0 m), .region (reg1 m), .region (reg2 m), .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and the final memory holds every unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What each region leaves alone

A region writes only its output window's array. An array it reads through an input window comes out as it went
in (an input array is never written back), and a buffer that is none of its arrays is not touched at all. -/

theorem V1_in (c : Dev nD) (w : Fin cfg0.W) (hw : (cfg0.win w).isOut = false) :
    V1 m c (Pipeline.arrRef spec0 w) = V0 m c (Pipeline.arrRef spec0 w) :=
  (W1_arr m c w).trans (((dat0 (V0 m) c).arrAt_in w hw _).trans (A_eq0 (V0 m) c w))
theorem V2_in (c : Dev nD) (w : Fin cfg1.W) (hw : (cfg1.win w).isOut = false) :
    V2 m c (Pipeline.arrRef spec1 w) = V1 m c (Pipeline.arrRef spec1 w) :=
  (W2_arr m c w).trans (((dat1 (V1 m) c).arrAt_in w hw _).trans (A_eq1 (V1 m) c w))
theorem V3_in (c : Dev nD) (w : Fin cfg2.W) (hw : (cfg2.win w).isOut = false) :
    V3 m c (Pipeline.arrRef spec2 w) = V2 m c (Pipeline.arrRef spec2 w) :=
  (W3_arr m c w).trans (((dat2 (V2 m) c).arrAt_in w hw _).trans (A_eq2 (V2 m) c w))

theorem V1_main_arg0 (c : Dev nD) : V1 m c main_arg0 = V0 m c main_arg0 := V1_in m c 0 rfl
theorem V1_main_arg1 (c : Dev nD) : V1 m c main_arg1 = V0 m c main_arg1 := W1_of_ne m c main_arg1 (by decide)
theorem V1_main_arg2 (c : Dev nD) : V1 m c main_arg2 = V0 m c main_arg2 := V1_in m c 1 rfl
theorem V1_main_arg3 (c : Dev nD) : V1 m c main_arg3 = V0 m c main_arg3 := W1_of_ne m c main_arg3 (by decide)

theorem V2_main_arg0 (c : Dev nD) : V2 m c main_arg0 = V1 m c main_arg0 := W2_of_ne m c main_arg0 (by decide)
theorem V2_main_arg1 (c : Dev nD) : V2 m c main_arg1 = V1 m c main_arg1 := V2_in m c 0 rfl
theorem V2_main_arg2 (c : Dev nD) : V2 m c main_arg2 = V1 m c main_arg2 := W2_of_ne m c main_arg2 (by decide)
theorem V2_main_arg3 (c : Dev nD) : V2 m c main_arg3 = V1 m c main_arg3 := V2_in m c 2 rfl

theorem V3_main_arg0 (c : Dev nD) : V3 m c main_arg0 = V2 m c main_arg0 := W3_of_ne m c main_arg0 (by decide)
theorem V3_main_arg1 (c : Dev nD) : V3 m c main_arg1 = V2 m c main_arg1 := V3_in m c 0 rfl
theorem V3_main_arg2 (c : Dev nD) : V3 m c main_arg2 = V2 m c main_arg2 := W3_of_ne m c main_arg2 (by decide)
theorem V3_main_arg3 (c : Dev nD) : V3 m c main_arg3 = V2 m c main_arg3 := W3_of_ne m c main_arg3 (by decide)

theorem V4_main_arg0 (c : Dev nD) : V4 m c main_arg0 = V3 m c main_arg0 := W4_of_ne m c main_arg0 (by decide)
theorem V4_main_arg1 (c : Dev nD) : V4 m c main_arg1 = V3 m c main_arg1 := W4_of_ne m c main_arg1 (by decide)
theorem V4_main_arg2 (c : Dev nD) : V4 m c main_arg2 = V3 m c main_arg2 := W4_of_ne m c main_arg2 (by decide)
theorem V4_main_arg3 (c : Dev nD) : V4 m c main_arg3 = V3 m c main_arg3 := W4_of_ne m c main_arg3 (by decide)
/-- The last region reads `z` and leaves it as it was. -/
theorem V4_main_v2 (c : Dev nD) : V4 m c main_v2 = V3 m c main_v2 := W4_of_ne m c main_v2 (by decide)

/-- Each argument reaches the end as launched. -/
theorem W4_main_arg0 (c : Dev nD) : W4 m c (Proc.devRef .tc main_arg0) = m ((c : Thread nD τ).loc main_arg0) :=
  (V4_main_arg0 m c).trans ((V3_main_arg0 m c).trans ((V2_main_arg0 m c).trans (V1_main_arg0 m c)))
theorem W4_main_arg1 (c : Dev nD) : W4 m c (Proc.devRef .tc main_arg1) = m ((c : Thread nD τ).loc main_arg1) :=
  (V4_main_arg1 m c).trans ((V3_main_arg1 m c).trans ((V2_main_arg1 m c).trans (V1_main_arg1 m c)))
theorem W4_main_arg2 (c : Dev nD) : W4 m c (Proc.devRef .tc main_arg2) = m ((c : Thread nD τ).loc main_arg2) :=
  (V4_main_arg2 m c).trans ((V3_main_arg2 m c).trans ((V2_main_arg2 m c).trans (V1_main_arg2 m c)))
theorem W4_main_arg3 (c : Dev nD) : W4 m c (Proc.devRef .tc main_arg3) = m ((c : Thread nD τ).loc main_arg3) :=
  (V4_main_arg3 m c).trans ((V3_main_arg3 m c).trans ((V2_main_arg3 m c).trans (V1_main_arg3 m c)))

/-- THE FRAME: from any memory with zero counters every weakly fair execution of @main terminates, nothing faulting,
    and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run m ρ)

end Cert.Kernel.Hand

end
-- ==== Proof.KI.R0.lean ====
/-
  The first matrix product, `s1 = x · W1`, as a pipelined region: the grid has five points, point `t` reads rows
  `2000 t … 2000 t + 1999` of `x` and all of `W1`, and writes the same rows of `s1`. This module states, at any
  contents `V` of the core's buffers when the region is entered, what each window's staging buffer holds when the
  body runs at a point (the block of the array the window stages), what the body leaves in the output's staging
  buffer (the product of the two blocks it loaded), and that the body, run on those buffers, does exactly that
  and touches nothing else: the obligation the pipeline's rule asks of a body, at every point.
-/
import proofs.«103521_g52742198395357_cont_9to1_m_1401_3_alg».proof.Proof.Gen.KernelIdeal.Launch
import proofs.«103521_g52742198395357_cont_9to1_m_1401_3_alg».proof.Proof.Gen.KernelIdeal.Skeleton
import proofs.«103521_g52742198395357_cont_9to1_m_1401_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of `x`'s window holds the window's block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of `W1`'s window holds all of `W1` at every point: it is fetched once, its block index never
    moves, and the body leaves it as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev rx0 : Rect S2000x128 := Rect.unit (s := S2000x128) ![0, 0] S2000x128.size inb_S2000x128_S2000x128_0_0
abbrev rw0 : Rect S128x64 := Rect.unit (s := S128x64) ![0, 0] S128x64.size inb_S128x64_S128x64_0_0
abbrev ro0 : Rect S2000x64 := Rect.unit (s := S2000x64) ![0, 0] S2000x64.size inb_S2000x64_S2000x64_0_0

/-! ## What the body leaves in the output's staging buffer -/

/-- The output's staging buffer after the body: its one store, the product of the two loaded blocks. -/
def out0_2 (x0 : Vec F S2000x128 .f32) (x1 : Vec F S128x64 .f32) : Vec F S2000x64 .f32 :=
  View.canon [⟨ro0, k0_pay1 (View.ld x0 rx0) (View.ld x1 rw0)⟩]

/-- The one store covers the buffer. -/
theorem cover0_2 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw1_body i arg1 harg1 arg2 harg2 arg3 harg3) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's staging buffer still at its block and the output's at the product of the two blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so `sound_kernel0` applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second region, `s2 = relu (adj · s1) · W2`: the grid has 25 points, point `t` reads rows `400 t … 400 t + 399`
  of `adj`, all of `s1` and all of `W2`, and writes the same rows of `s2`. As for the first region this module states,
  at any contents `V` of the core's buffers when the region is entered, what each staging buffer holds when the body
  runs, what the body leaves in the output's staging buffer, and that the body does exactly that: the obligation
  the pipeline's rule asks of a body, at every point.
-/
import proofs.«103521_g52742198395357_cont_9to1_m_1401_3_alg».proof.Proof.Gen.KernelIdeal.Launch
import proofs.«103521_g52742198395357_cont_9to1_m_1401_3_alg».proof.Proof.Gen.KernelIdeal.Skeleton
import proofs.«103521_g52742198395357_cont_9to1_m_1401_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of `adj`'s window holds the window's block at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of `s1`'s window holds all of `s1` at every point: fetched once, its block index never moves,
    and the body leaves it as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for `W2`'s window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev ra1 : Rect S400x10000 := Rect.unit (s := S400x10000) ![0, 0] S400x10000.size inb_S400x10000_S400x10000_0_0
abbrev rs1 : Rect S10000x64 := Rect.unit (s := S10000x64) ![0, 0] S10000x64.size inb_S10000x64_S10000x64_0_0
abbrev rw1 : Rect S64x16 := Rect.unit (s := S64x16) ![0, 0] S64x16.size inb_S64x16_S64x16_0_0
abbrev ro1 : Rect S400x16 := Rect.unit (s := S400x16) ![0, 0] S400x16.size inb_S400x16_S400x16_0_0

/-! ## What the body leaves in the output's staging buffer -/

/-- The output's staging buffer after the body: its one store, `relu (a · s) · w` of the three loaded blocks. -/
def out1_3 (x0 : Vec F S400x10000 .f32) (x1 : Vec F S10000x64 .f32) (x2 : Vec F S64x16 .f32) : Vec F S400x16 .f32 :=
  View.canon [⟨ro1, k1_pay1 (View.ld x0 ra1) (View.ld x1 rs1) (View.ld x2 rw1)⟩]

/-- The one store covers the buffer. -/
theorem cover1_3 (p0 : Vec F S400x16 .f32) (y : S400x16.Idx) :
    ∃ pc ∈ ([⟨ro1, p0⟩] : List (View.Piece (Elt F) S400x16 .f32)), y ∈ pc.1.set :=
  View.cover_of_tiled [⟨ro1, p0⟩] S400x16.size (by rfl) y

/-! ## The body's triple -/

set_option maxHeartbeats 1000000 in
/-- The body on whole staging memrefs, the inputs' at contents `x0`, `x1`, `x2` and the output's at anything, runs to the
    continuation holding the inputs' as they were and the output's at `out1_3 x0 x1 x2`. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S64x16 .f32) (harg3 : arg3.IsWhole) (arg4 : Memref sig .tc .vmem S400x16 .f32) (harg4 : arg4.IsWhole)
    (x0 : Vec F S400x10000 .f32) (x1 : Vec F S10000x64 .f32) (x2 : Vec F S64x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_body i arg1 harg1 arg2 harg2 arg3 harg3 arg4 harg4) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region on core `c`: the arrays as the region finds them; after the body at point `t` each
    input's staging buffer still at its block and the output's at `out1_3` of the three blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so `sound_kernel1` applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The third region, `z = relu (adj · s2)`: the grid has 25 points, point `t` reads rows `400 t … 400 t + 399` of `adj`
  and all of `s2`, and writes the same rows of `z`. As for the earlier regions this module states, at any contents `V`
  of the core's buffers when the region is entered, what each staging buffer holds when the body runs, what the
  body leaves in the output's staging buffer, and that the body does exactly that, at every point.
-/
import proofs.«103521_g52742198395357_cont_9to1_m_1401_3_alg».proof.Proof.Gen.KernelIdeal.Launch
import proofs.«103521_g52742198395357_cont_9to1_m_1401_3_alg».proof.Proof.Gen.KernelIdeal.Skeleton
import proofs.«103521_g52742198395357_cont_9to1_m_1401_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of `adj`'s window holds the window's block at every point: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of `s2`'s window holds all of `s2` at every point: fetched once, its block index never moves,
    and the body leaves it as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev ra2 : Rect S400x10000 := Rect.unit (s := S400x10000) ![0, 0] S400x10000.size inb_S400x10000_S400x10000_0_0
abbrev rs2 : Rect S10000x16 := Rect.unit (s := S10000x16) ![0, 0] S10000x16.size inb_S10000x16_S10000x16_0_0
abbrev ro2 : Rect S400x16 := Rect.unit (s := S400x16) ![0, 0] S400x16.size inb_S400x16_S400x16_0_0

/-! ## What the body leaves in the output's staging buffer -/

/-- The output's staging buffer after the body: its one store, `relu (a · s)` of the two loaded blocks. -/
def out2_2 (x0 : Vec F S400x10000 .f32) (x1 : Vec F S10000x16 .f32) : Vec F S400x16 .f32 :=
  View.canon [⟨ro2, k2_pay1 (View.ld x0 ra2) (View.ld x1 rs2)⟩]

/-- The one store covers the buffer. -/
theorem cover2_2 (p0 : Vec F S400x16 .f32) (y : S400x16.Idx) :
    ∃ pc ∈ ([⟨ro2, p0⟩] : List (View.Piece (Elt F) S400x16 .f32)), y ∈ pc.1.set :=
  View.cover_of_tiled [⟨ro2, p0⟩] S400x16.size (by rfl) y

/-! ## The body's triple -/

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords)
    (arg1 : Memref sig .tc .vmem S400x10000 .f32) (harg1 : arg1.IsWhole) (arg2 : Memref sig .tc .vmem S10000x16 .f32) (harg2 : arg2.IsWhole)
    (arg3 : Memref sig .tc .vmem S400x16 .f32) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__pass2_body i arg1 harg1 arg2 harg2 arg3 harg3) K := by
  simp only [cc2__pass2_body_eq_skeleton]; unfold cc2__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's staging buffer still at its block and the output's at `out2_2` of the two blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so `sound_kernel2` applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  The fourth region, `a_bar = z · zᵀ`: the grid has 25 points, point `t` reads rows `400 t … 400 t + 399` of `z`
  through one window and all of `z` through another, and writes the same rows of `a_bar`. Two windows of this region
  read ONE array, so the core cannot hold that array whole for each: the first window holds the left half of the
  array's share and the second the right half, which is all a window that only reads needs. The rest is as for the
  earlier regions: at any contents `V` of the core's buffers when the region is entered, what each staging buffer
  holds when the body runs, what the body leaves in the output's staging buffer, and that the body does exactly that.
-/
import proofs.«103521_g52742198395357_cont_9to1_m_1401_3_alg».proof.Proof.Gen.KernelIdeal.Launch
import proofs.«103521_g52742198395357_cont_9to1_m_1401_3_alg».proof.Proof.Gen.KernelIdeal.Skeleton
import proofs.«103521_g52742198395357_cont_9to1_m_1401_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the row-block window holds the window's block at every point: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the whole-array window holds all of `z` at every point: fetched once, its block index never
    moves, and the body leaves it as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev rz3 : Rect S400x16 := Rect.unit (s := S400x16) ![0, 0] S400x16.size inb_S400x16_S400x16_0_0
abbrev rs3 : Rect S10000x16 := Rect.unit (s := S10000x16) ![0, 0] S10000x16.size inb_S10000x16_S10000x16_0_0
abbrev ro3 : Rect S400x10000 := Rect.unit (s := S400x10000) ![0, 0] S400x10000.size inb_S400x10000_S400x10000_0_0

/-! ## What the body leaves in the output's staging buffer -/

/-- The output's staging buffer after the body: its one store, the product of the row block with the transpose of
    the whole array. -/
def out3_2 (x0 : Vec F S400x16 .f32) (x1 : Vec F S10000x16 .f32) : Vec F S400x10000 .f32 :=
  View.canon [⟨ro3, k3_pay1 (View.ld x0 rz3) (View.ld x1 rs3)⟩]

/-- The one store covers the buffer. -/
theorem cover3_2 (p0 : Vec F S400x10000 .f32) (y : S400x10000.Idx) :
    ∃ pc ∈ ([⟨ro3, p0⟩] : List (View.Piece (Elt F) S400x10000 .f32)), y ∈ pc.1.set :=
  View.cover_of_tiled [⟨ro3, p0⟩] S400x10000.size (by rfl) y

/-! ## The body's triple -/

set_option maxHeartbeats 1000000 in
/-- The body on whole staging memrefs, the inputs' at contents `x0`, `x1` and the output's at anything, runs to the
    continuation holding the inputs' as they were and the output's at `out3_2 x0 x1`. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__abar_body i arg1 harg1 arg2 harg2 arg3 harg3) K := by
  simp only [cc3__abar_body_eq_skeleton]; unfold cc3__abar_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input's staging buffer still at its block and the output's at `out3_2` of the two blocks; the invariant the scoped
    rest and the generator register, untouched; nothing owed. The two input windows read one array: the first holds
    the left half of its share, the second the right half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares the region holds its three arrays at. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' staging buffers hold their blocks, so `sound_kernel3` applies; the invariant
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole run. @main is four pipelined regions, one after the other, with no host operation between them. Between
  two regions the core's unscoped buffers hold: the four arguments as launched, and each intermediate array at what
  the region that writes it left there (the fold of its write-backs over its grid). This module names those contents
  at the five boundaries, gives each region its proof data at the contents it is entered from, states each region as
  a segment from one boundary to the next, and runs the four segments from the launch: every weakly fair execution
  terminates, nothing faults, and the final memory holds every unscoped buffer at the last boundary's contents.
  The fourth region reads one array through two windows: at its entry the array's points-to is split into its two
  half shares, one per window, and at its exit the halves are joined again.
-/
import proofs.«103521_g52742198395357_cont_9to1_m_1401_3_alg».proof.Proof.KI.R0
import proofs.«103521_g52742198395357_cont_9to1_m_1401_3_alg».proof.Proof.KI.R1
import proofs.«103521_g52742198395357_cont_9to1_m_1401_3_alg».proof.Proof.KI.R2
import proofs.«103521_g52742198395357_cont_9to1_m_1401_3_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the first region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the third region. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the fourth region: the decoded adjacency at what the pipeline leaves, every other buffer as before (the
    region's two input windows read `z` and write nothing). -/
def W4 (c : Dev nD) : Valuation τ sig (Elt F) :=
  Function.update (W3 m c) (Proc.devRef .tc main_v3) ((dat3 (V3 m) c).arrAt 2 cfg3.N)
theorem W4_out (c : Dev nD) : W4 m c (Proc.devRef .tc main_v3) = (dat3 (V3 m) c).arrAt 2 cfg3.N := by
  unfold W4; exact Function.update_self ..
theorem W4_of_ne (c : Dev nD) (b : Ref sig .tc) (hb : b ≠ main_v3) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The fourth region's arrays among the unscoped buffers: one array, two readers -/

/-- The fourth region's windows stand on two arrays: `z` (read through two windows) and the decoded adjacency. -/
theorem arrRefs3 : (Finset.univ.image (Pipeline.arrRef spec3) : Finset (Ref sig .tc)) = ([main_v2, main_v3] : List (Ref sig .tc)).toFinset := by decide

/-- ENTRY of the fourth region: the core's unscoped buffers at `V` are the region's arrays at the shares its proof
    data name — `z`'s points-to split into its left half for the row-block window and its right half for the
    whole-array window, the output array whole — and the rest. -/
theorem entry3 (V : (c : Dev nD) → (b : Ref sig .tc) → Buf (Elt F) ((c : Thread nD τ).loc b)) (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [bigSep_W3]
  refine (Entails.of_eq (bigSep_eq_bigSepL_of_eq [main_v2, main_v3] arrRefs3 (by decide) _)).trans ?_
  rw [(arr_whole3 0).set_eq_univ, (arr_whole3 2).set_eq_univ]
  show iprop(((c : Thread nD τ).loc main_v2 ↦{fullShare} V c main_v2) ∗ ((c : Thread nD τ).loc main_v3 ↦{fullShare} V c main_v3))
    ⊢ iprop(((c : Thread nD τ).loc main_v2 ↦{fullShare.left} V c main_v2) ∗ ((c : Thread nD τ).loc main_v2 ↦{fullShare.right} V c main_v2)
        ∗ ((c : Thread nD τ).loc main_v3 ↦{fullShare} V c main_v3))
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-- EXIT of the fourth region: the halves joined again, the output array at what the pipeline left. -/
theorem exit3 (V V' : (c : Dev nD) → (b : Ref sig .tc) → Buf (Elt F) ((c : Thread nD τ).loc b)) (c : Dev nD)
    (hout : V' c main_v3 = (dat3 V c).arrAt 2 cfg3.N) (hrest : ∀ b : Ref sig .tc, b ≠ main_v3 → V' c b = V c b) :
    iprop((dat3 V c).arrays ((dat3 V c).arrAt · cfg3.N) ∗ Pipeline.unscopedRest spec3 c (V c)) ⊢ (unscopedBufs c (V' c) : sProp 𝕄) := by
  rw [Pipeline.unscopedBufs_split₀ cfgs 3 winFacts₀3.arr_unscoped c (V' c)]
  refine sep_mono ?_ (Entails.of_eq ?_)
  · unfold Pipeline.arrBufs Dat.arrays
    rw [bigSep_W3]
    refine BIBase.Entails.trans ?_ (Entails.of_eq (bigSep_eq_bigSepL_of_eq [main_v2, main_v3] arrRefs3 (by decide) _).symm)
    beta_reduce
    rw [(arr_whole3 0).set_eq_univ, (arr_whole3 2).set_eq_univ,
      show (dat3 V c).arrAt 0 cfg3.N = V c main_v2 from ((dat3 V c).arrAt_in 0 rfl _).trans (A_eq3 V c 0),
      show (dat3 V c).arrAt 1 cfg3.N = V c main_v2 from ((dat3 V c).arrAt_in 1 rfl _).trans (A_eq3 V c 1)]
    show iprop(((c : Thread nD τ).loc main_v2 ↦{fullShare.left} V c main_v2) ∗ ((c : Thread nD τ).loc main_v2 ↦{fullShare.right} V c main_v2)
        ∗ ((c : Thread nD τ).loc main_v3 ↦{fullShare} (dat3 V c).arrAt 2 cfg3.N))
      ⊢ iprop(((c : Thread nD τ).loc main_v2 ↦{fullShare} V' c main_v2) ∗ ((c : Thread nD τ).loc main_v3 ↦{fullShare} V' c main_v3))
    rw [hout, hrest main_v2 (by decide)]
    iintro ⟨Hl, Hr, Ho⟩
    isplitl [Hl Hr]
    · iapply (pointsTo_share (PosShare.mem_left_op_right fullShare)).2
      isplitl [Hl] <;> iassumption
    iexact Ho
  · unfold Pipeline.unscopedRest
    refine bigSep_congr fun b hb => ?_
    rw [hrest b fun e => (Finset.mem_sdiff.mp hb).2 (e ▸ Finset.mem_image.mpr ⟨2, Finset.mem_univ _, rfl⟩)]

/-! ## The regions as segments -/

set_option backward.isDefEq.respectTransparency.types false in
/-- The first region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W2`, left at `W3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth region over the thread state: entered from every unscoped buffer at `W3`, left at `W4`, which the
    launch reads at the end. Its arrays leave and rejoin the unscoped buffers by `entry3` and `exit3`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := entry3 (F := F) (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (F := F) (V3 m) (V4 m) c (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four segments in order: a region per pallas_call. -/
abbrev segs : List (Pipeline.Seg (pcfgs (F := F)) adm (pdats m) () defs₀ 𝒱₀ L lv) :=
  [ .region (reg0 m), .region (reg1 m), .region (reg2 m), .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and the final memory holds every unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What each region leaves alone

A region writes only its output window's array. An array it reads through an input window comes out as it went
in (an input array is never written back), and a buffer that is none of its arrays is not touched at all. -/

theorem V1_in (c : Dev nD) (w : Fin cfg0.W) (hw : (cfg0.win w).isOut = false) :
    V1 m c (Pipeline.arrRef spec0 w) = V0 m c (Pipeline.arrRef spec0 w) :=
  (W1_arr m c w).trans (((dat0 (V0 m) c).arrAt_in w hw _).trans (A_eq0 (V0 m) c w))
theorem V2_in (c : Dev nD) (w : Fin cfg1.W) (hw : (cfg1.win w).isOut = false) :
    V2 m c (Pipeline.arrRef spec1 w) = V1 m c (Pipeline.arrRef spec1 w) :=
  (W2_arr m c w).trans (((dat1 (V1 m) c).arrAt_in w hw _).trans (A_eq1 (V1 m) c w))
theorem V3_in (c : Dev nD) (w : Fin cfg2.W) (hw : (cfg2.win w).isOut = false) :
    V3 m c (Pipeline.arrRef spec2 w) = V2 m c (Pipeline.arrRef spec2 w) :=
  (W3_arr m c w).trans (((dat2 (V2 m) c).arrAt_in w hw _).trans (A_eq2 (V2 m) c w))

theorem V1_main_arg0 (c : Dev nD) : V1 m c main_arg0 = V0 m c main_arg0 := V1_in m c 0 rfl
theorem V1_main_arg1 (c : Dev nD) : V1 m c main_arg1 = V0 m c main_arg1 := W1_of_ne m c main_arg1 (by decide)
theorem V1_main_arg2 (c : Dev nD) : V1 m c main_arg2 = V0 m c main_arg2 := V1_in m c 1 rfl
theorem V1_main_arg3 (c : Dev nD) : V1 m c main_arg3 = V0 m c main_arg3 := W1_of_ne m c main_arg3 (by decide)

theorem V2_main_arg0 (c : Dev nD) : V2 m c main_arg0 = V1 m c main_arg0 := W2_of_ne m c main_arg0 (by decide)
theorem V2_main_arg1 (c : Dev nD) : V2 m c main_arg1 = V1 m c main_arg1 := V2_in m c 0 rfl
theorem V2_main_arg2 (c : Dev nD) : V2 m c main_arg2 = V1 m c main_arg2 := W2_of_ne m c main_arg2 (by decide)
theorem V2_main_arg3 (c : Dev nD) : V2 m c main_arg3 = V1 m c main_arg3 := V2_in m c 2 rfl

theorem V3_main_arg0 (c : Dev nD) : V3 m c main_arg0 = V2 m c main_arg0 := W3_of_ne m c main_arg0 (by decide)
theorem V3_main_arg1 (c : Dev nD) : V3 m c main_arg1 = V2 m c main_arg1 := V3_in m c 0 rfl
theorem V3_main_arg2 (c : Dev nD) : V3 m c main_arg2 = V2 m c main_arg2 := W3_of_ne m c main_arg2 (by decide)
theorem V3_main_arg3 (c : Dev nD) : V3 m c main_arg3 = V2 m c main_arg3 := W3_of_ne m c main_arg3 (by decide)

theorem V4_main_arg0 (c : Dev nD) : V4 m c main_arg0 = V3 m c main_arg0 := W4_of_ne m c main_arg0 (by decide)
theorem V4_main_arg1 (c : Dev nD) : V4 m c main_arg1 = V3 m c main_arg1 := W4_of_ne m c main_arg1 (by decide)
theorem V4_main_arg2 (c : Dev nD) : V4 m c main_arg2 = V3 m c main_arg2 := W4_of_ne m c main_arg2 (by decide)
theorem V4_main_arg3 (c : Dev nD) : V4 m c main_arg3 = V3 m c main_arg3 := W4_of_ne m c main_arg3 (by decide)
/-- The last region reads `z` and leaves it as it was. -/
theorem V4_main_v2 (c : Dev nD) : V4 m c main_v2 = V3 m c main_v2 := W4_of_ne m c main_v2 (by decide)

/-- Each argument reaches the end as launched. -/
theorem W4_main_arg0 (c : Dev nD) : W4 m c (Proc.devRef .tc main_arg0) = m ((c : Thread nD τ).loc main_arg0) :=
  (V4_main_arg0 m c).trans ((V3_main_arg0 m c).trans ((V2_main_arg0 m c).trans (V1_main_arg0 m c)))
theorem W4_main_arg1 (c : Dev nD) : W4 m c (Proc.devRef .tc main_arg1) = m ((c : Thread nD τ).loc main_arg1) :=
  (V4_main_arg1 m c).trans ((V3_main_arg1 m c).trans ((V2_main_arg1 m c).trans (V1_main_arg1 m c)))
theorem W4_main_arg2 (c : Dev nD) : W4 m c (Proc.devRef .tc main_arg2) = m ((c : Thread nD τ).loc main_arg2) :=
  (V4_main_arg2 m c).trans ((V3_main_arg2 m c).trans ((V2_main_arg2 m c).trans (V1_main_arg2 m c)))
theorem W4_main_arg3 (c : Dev nD) : W4 m c (Proc.devRef .tc main_arg3) = m ((c : Thread nD τ).loc main_arg3) :=
  (V4_main_arg3 m c).trans ((V3_main_arg3 m c).trans ((V2_main_arg3 m c).trans (V1_main_arg3 m c)))

/-- THE FRAME: from any memory with zero counters every weakly fair execution of @main terminates, nothing faulting,
    and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run m ρ)

end Cert.KernelIdeal.Hand

end
-- ==== Proof.Spec.lean ====
/-
  The mathematics both programs compute, over the extended reals, stated once and for no program in particular.
  A matrix is a function of its rank-2 index. `mm x w` is the matrix product (row of `x` against column of `w`,
  the sum over the shared axis), `mmT x w` the product of `x` with the transpose of `w` (row against row),
  `relu` the entrywise maximum with zero. The graph auto-encoder's forward pass is then
    z     = relu (adj · (relu (adj · (x · W1)) · W2))
    a_bar = z · zᵀ.
  Sums over a finite index type in the extended reals are taken in the commutative monoid (ℝ ∪ {±∞}, +), so neither
  the order of the summands nor the way a sum is cut into blocks matters.
-/
import Idealize.ShloMosaic.PureOps.Ideal
import Idealize.ShloMosaic.Lib.ValueIdx

noncomputable section

namespace Cert.Spec

open Idealize.ShloMosaic

/-- An `a × b` matrix of extended reals. -/
abbrev Mat (a b : ℕ) : Type := (⟨2, ![a, b]⟩ : Shape).Idx → EReal

/-- The row of a rank-2 index. -/
abbrev row {a b : ℕ} (i : (⟨2, ![a, b]⟩ : Shape).Idx) : Fin a := ⟨(i 0).val, ValueIdx.idx2_lt0 i⟩
/-- The column of a rank-2 index. -/
abbrev col {a b : ℕ} (i : (⟨2, ![a, b]⟩ : Shape).Idx) : Fin b := ⟨(i 1).val, ValueIdx.idx2_lt1 i⟩

/-- The matrix product: entry `(r, c)` is `∑ j, x (r, j) * w (j, c)`. -/
def mm {a k b : ℕ} (x : Mat a k) (w : Mat k b) : Mat a b :=
  fun i => ∑ j : Fin k, x (ValueIdx.ix2 (row i) j) * w (ValueIdx.ix2 j (col i))

/-- The product with a transpose: entry `(r, c)` is `∑ j, x (r, j) * w (c, j)`. -/
def mmT {a k b : ℕ} (x : Mat a k) (w : Mat b k) : Mat a b :=
  fun i => ∑ j : Fin k, x (ValueIdx.ix2 (row i) j) * w (ValueIdx.ix2 (col i) j)

/-- The entrywise maximum with zero. -/
def relu {a b : ℕ} (x : Mat a b) : Mat a b := fun i => max (x i) 0

/-- The latent embedding `z = relu (adj · (relu (adj · (x · W1)) · W2))`. -/
def zOf (x : Mat 10000 128) (adj : Mat 10000 10000) (W1 : Mat 128 64) (W2 : Mat 64 16) : Mat 10000 16 :=
  relu (mm adj (mm (relu (mm adj (mm x W1))) W2))

/-- The decoded adjacency `a_bar = z · zᵀ`. -/
def abarOf (x : Mat 10000 128) (adj : Mat 10000 10000) (W1 : Mat 128 64) (W2 : Mat 64 16) : Mat 10000 10000 :=
  mmT (zOf x adj W1 W2) (zOf x adj W1 W2)

end Cert.Spec

end
-- ==== Proof.Val.B0.lean ====
/-
  What the first region writes: after its five points, the array `s1` holds the matrix product `x · W1`.

  Point `t` of the grid multiplies rows `2000 t … 2000 t + 1999` of `x` by the whole of `W1` and writes the
  product over the same rows of `s1`. An entry of a product of blocks is the sum, over the shared axis, of the
  products of the left block's row and the right block's column; the left block's row `p` is row `2000 t + p` of `x`
  and the right block is `W1` itself, so the entry at `(p, q)` of what point `t` writes is the entry at
  `(2000 t + p, q)` of `x · W1`. Every row `r` of `s1` lies in the block of exactly one point, `r / 2000`, so the five
  write-backs together leave `x · W1` in every entry, whatever `s1` held before.
-/
import proofs.«103521_g52742198395357_cont_9to1_m_1401_3_alg».proof.Proof.KI.R0
import proofs.«103521_g52742198395357_cont_9to1_m_1401_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The product of two blocks, entry by entry -/

/-- The left operand of the block product is read at the entry's own row, -/
theorem lhs_xw1_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- and at the summation index as its column; -/
theorem lhs_xw1_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- the right operand at the summation index as its row, -/
theorem rhs_xw1_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- and at the entry's own column. -/
theorem rhs_xw1_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's arithmetic at an entry: the product into a zero accumulator of a `2000 × 128` block and a `128 × 64`
    block has at `(p, q)` the sum over `k` of the left block's `(p, k)` times the right block's `(k, q)`. -/
theorem xw1_block_apply (x0 : Vec Ideal S2000x128 .f32) (x1 : Vec Ideal S128x64 .f32) (p : Fin 2000) (q : Fin 64) :
    k0_pay1 (F := Ideal) x0 x1 (ValueIdx.ix2 p q) = ∑ k : Fin 128, x0 (ValueIdx.ix2 p k) * x1 (ValueIdx.ix2 k q) := by
  unfold k0_pay1
  refine (Ideal.matmul_constant_zero_apply dot_S2000x128_S128x64_S2000x64_1_0_0_1_n_n none x0 x1 (ValueIdx.ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ValueIdx.ix2 p q) ((ValueIdx.contrEquiv1 dot_S2000x128_S128x64_S2000x64_1_0_0_1_n_n 128 rfl rfl).symm k) = ValueIdx.ix2 p k := funext fun a => Fin.ext (by
    match a with
    | ⟨0, _⟩ => exact lhs_xw1_0 _ _
    | ⟨1, _⟩ => exact (lhs_xw1_1 _ _).trans hk)
  have er : dot_S2000x128_S128x64_S2000x64_1_0_0_1_n_n.rhsIdx (ValueIdx.ix2 p q) ((ValueIdx.contrEquiv1 dot_S2000x128_S128x64_S2000x64_1_0_0_1_n_n 128 rfl rfl).symm k) = ValueIdx.ix2 k q := funext fun a => Fin.ext (by
    match a with
    | ⟨0, _⟩ => exact (rhs_xw1_0 _ _).trans hk
    | ⟨1, _⟩ => exact rhs_xw1_1 _ _)
  rw [el, er]

/-- An entry of the block product, given where the entry's row of the left block and column of the right block sit in two
    matrices `X` and `W`: if row `j 0` of the left block is row `row i` of `X` and column `j 1` of the right block is
    column `col i` of `W`, the block product at `j` is `X · W` at `i`. -/
theorem xw1_block_entry (X : Spec.Mat 10000 128) (W : Spec.Mat 128 64) (x0 : Vec Ideal S2000x128 .f32) (x1 : Vec Ideal S128x64 .f32)
    (j : S2000x64.Idx) (i : S10000x64.Idx)
    (hx0 : ∀ k : Fin 128, x0 (ValueIdx.ix2 (j 0) k) = X (ValueIdx.ix2 (Spec.row i) k))
    (hx1 : ∀ k : Fin 128, x1 (ValueIdx.ix2 k (j 1)) = W (ValueIdx.ix2 k (Spec.col i))) :
    k0_pay1 (F := Ideal) x0 x1 j = Spec.mm X W i := by
  obtain ⟨p, q, rfl⟩ : ∃ (p : Fin 2000) (q : Fin 64), j = ValueIdx.ix2 p q := ⟨j 0, j 1, ValueIdx.eq_ix2 j⟩
  refine (xw1_block_apply x0 x1 p q).trans ?_
  exact Finset.sum_congr rfl fun k _ => congrArg₂ (· * ·) (hx0 k) (hx1 k)

/-! ## From the blocks to the array -/

theorem zero_offsets0 : (![0, 0] : Fin 2 → Nat) = fun _ => 0 := funext fun a => by fin_cases a <;> rfl

/-- The block indices over the grid: at point `t` the window of `x` and the window of `s1` are at block row `t`,
    block column `0`; the window of `W1` is at block `(0, 0)`, the whole array. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x · W1`: rows `2000 t …` of `x` times all of `W1`. -/
theorem flushed0_eq (c : Dev nD) (t : Fin cfg0.N) :
    (dat0 V c).flushed 2 t = ((cfg0.win 2).blk t).view.read (Elt Ideal) (Spec.mm (V c main_arg0 : Spec.Mat 10000 128) (V c main_arg2 : Spec.Mat 128 64)) := by
  show (cfg0.win 2).cut (cfg0.grid.coords t) ((dat0 V c).after 2 t) = _
  rw [after0_2]
  unfold out0_2
  rw [View.canon_unit_zero zero_offsets0]
  simp only [View.ld_unit_zero (S := S2000x128) zero_offsets0, View.ld_unit_zero (S := S128x64) zero_offsets0]
  obtain ⟨e00, e01, e10, e11, e20, e21⟩ := block_indices0 t
  funext j
  show k0_pay1 (F := Ideal) (iblk0 V c 0 t) (iblk0 V c 1 t) j = Spec.mm (V c main_arg0 : Spec.Mat 10000 128) (V c main_arg2 : Spec.Mat 128 64) (((cfg0.win 2).blk t).view.emb j)
  refine xw1_block_entry (V c main_arg0) (V c main_arg2) (iblk0 V c 0 t) (iblk0 V c 1 t) j (((cfg0.win 2).blk t).view.emb j) (fun k => ?_) (fun k => ?_)
  · show V c main_arg0 (((cfg0.win 0).blk t).view.emb (ValueIdx.ix2 (j 0) k)) = V c main_arg0 (ValueIdx.ix2 (Spec.row (((cfg0.win 2).blk t).view.emb j)) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb (ValueIdx.ix2 k (j 1))) = V c main_arg2 (ValueIdx.ix2 k (Spec.col (((cfg0.win 2).blk t).view.emb j)))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An entry of `s1` is in point `t`'s block iff each of its coordinates is in the block's range on that axis. -/
theorem mem_block0 (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- The blocks cover `s1`: row `r` is in the block of point `r / 2000`, which is below five because `r` is below ten
    thousand; every point writes its block back. -/
theorem cover0 (i : S10000x64.Idx) : ∃ t : Fin cfg0.N, (cfg0.win 2).flush t = true ∧ i ∈ ((cfg0.win 2).blk t).view.set := by
  have hi0 : (i 0).val < 10000 := ValueIdx.idx2_lt0 i
  have hi1 : (i 1).val < 64 := ValueIdx.idx2_lt1 i
  have hN : (i 0).val / 2000 < grid0.N := by rw [N_0]; omega
  obtain ⟨t, ht⟩ : ∃ t : Fin cfg0.N, t.val = (i 0).val / 2000 := ⟨⟨_, hN⟩, rfl⟩
  obtain ⟨-, -, -, -, e20, e21⟩ := block_indices0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region's last point the output array is the product of the two input arrays as the region found them. -/
theorem final0 (c : Dev nD) :
    ((dat0 V c).arrAt 2 cfg0.N : Spec.Mat 10000 64) = Spec.mm (V c main_arg0 : Spec.Mat 10000 128) (V c main_arg2 : Spec.Mat 128 64) :=
  (dat0 V c).arrAt_eq_of_cover 2 (Spec.mm (V c main_arg0 : Spec.Mat 10000 128) (V c main_arg2 : Spec.Mat 128 64))
    (fun t _ => flushed0_eq V c t) cover0

end Cert.KernelIdeal.Hand

end
-- ==== Proof.Val.B1.lean ====
/-
  What the second region writes: after its 25 points, the array `s2` holds `relu (adj · s1) · W2`.

  Point `t` of the grid takes rows `400 t … 400 t + 399` of `adj` as its left block `a`, and all of `s1` and all of `W2` as
  its other two blocks `s` and `w`. It forms `a · s` (each entry the sum, over the 10000 shared indices, of the products of
  a row of `a` and a column of `s`), takes the entrywise maximum with zero, multiplies the result by `w` (a sum over the 64
  shared indices), and writes the `400 × 16` product over rows `400 t …` of `s2`. Row `p` of the block `a` is row `400 t + p`
  of `adj`, and row `r` of `adj · s1` uses only row `r` of `adj`; the maximum is entrywise and row `r` of the second product
  uses only row `r` of its left factor. So the entry at `(p, q)` of what point `t` writes is the entry at `(400 t + p, q)`
  of `relu (adj · s1) · W2`. Every row `r` of `s2` lies in the block of exactly one point, `r / 400`, so the 25 write-backs
  together leave `relu (adj · s1) · W2` in every entry, whatever `s2` held before.
-/
import proofs.«103521_g52742198395357_cont_9to1_m_1401_3_alg».proof.Proof.KI.R1
import proofs.«103521_g52742198395357_cont_9to1_m_1401_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The two block products, entry by entry -/

/-- In the first product, `a · s`, the left block is read at the entry's own row, -/
theorem lhs_pass1a_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
/-- and at the summation index as its column; -/
theorem lhs_pass1a_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- the right block at the summation index as its row, -/
theorem rhs_pass1a_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
/-- and at the entry's own column. -/
theorem rhs_pass1a_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The same four readings for the second product, `h · w`: the left block at the entry's own row, -/
theorem lhs_pass1b_0 (i : S400x16.Idx) (q : dot_S400x64_S64x16_S400x16_1_0_0_1_n_n.contr.Idx) :
    (dot_S400x64_S64x16_S400x16_1_0_0_1_n_n.lhsIdx i q 0).val = (i 0).val := by
  unfold DotDims.lhsIdx
  rw [dif_neg (show ¬(0 : Fin S400x64.rank) ∈ dot_S400x64_S64x16_S400x16_1_0_0_1_n_n.lhsBatch by decide), dif_pos (show (0 : Fin S400x64.rank) ∈ dot_S400x64_S64x16_S400x16_1_0_0_1_n_n.lhsNonContracting by decide)]
  rfl
/-- and at the summation index as its column; -/
theorem lhs_pass1b_1 (i : S400x16.Idx) (q : dot_S400x64_S64x16_S400x16_1_0_0_1_n_n.contr.Idx) :
    (dot_S400x64_S64x16_S400x16_1_0_0_1_n_n.lhsIdx i q 1).val = (q ⟨0, by decide⟩).val :=
  dot_S400x64_S64x16_S400x16_1_0_0_1_n_n.lhsIdx_val_of_single rfl i q
/-- the right block at the summation index as its row, -/
theorem rhs_pass1b_0 (i : S400x16.Idx) (q : dot_S400x64_S64x16_S400x16_1_0_0_1_n_n.contr.Idx) :
    (dot_S400x64_S64x16_S400x16_1_0_0_1_n_n.rhsIdx i q 0).val = (q ⟨0, by decide⟩).val :=
  dot_S400x64_S64x16_S400x16_1_0_0_1_n_n.rhsIdx_val_of_single rfl i q
/-- and at the entry's own column. -/
theorem rhs_pass1b_1 (i : S400x16.Idx) (q : dot_S400x64_S64x16_S400x16_1_0_0_1_n_n.contr.Idx) :
    (dot_S400x64_S64x16_S400x16_1_0_0_1_n_n.rhsIdx i q 1).val = (i 1).val := by
  unfold DotDims.rhsIdx
  rw [dif_neg (show ¬(1 : Fin S64x16.rank) ∈ dot_S400x64_S64x16_S400x16_1_0_0_1_n_n.rhsBatch by decide), dif_pos (show (1 : Fin S64x16.rank) ∈ dot_S400x64_S64x16_S400x16_1_0_0_1_n_n.rhsNonContracting by decide)]
  rfl

/-- The first product at an entry: a `400 × 10000` block times a `10000 × 64` block, into a zero accumulator, has at
    `(p, j)` the sum over `k` of the left block's `(p, k)` times the right block's `(k, j)`. -/
theorem inner_apply_pass1 (x0 : FVec Ideal S400x10000 .f32) (x1 : FVec Ideal S10000x64 .f32) (p : Fin 400) (j : Fin 64) :
    matmul (F := Ideal) dot_S400x10000_S10000x64_S400x64_1_0_0_1_n_n none x0 x1 (constant (F := Ideal) S400x64 .f32 0x00000000#32) (ValueIdx.ix2 p j)
      = ∑ k : Fin 10000, x0 (ValueIdx.ix2 p k) * x1 (ValueIdx.ix2 k j) := by
  refine (Ideal.matmul_constant_zero_apply dot_S400x10000_S10000x64_S400x64_1_0_0_1_n_n none x0 x1 (ValueIdx.ix2 p j)).trans ?_
  rw [← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ValueIdx.ix2 p j) ((ValueIdx.contrEquiv1 dot_S400x10000_S10000x64_S400x64_1_0_0_1_n_n 10000 rfl rfl).symm k) = ValueIdx.ix2 p k := funext fun a => Fin.ext (by
    match a with
    | ⟨0, _⟩ => exact lhs_pass1a_0 _ _
    | ⟨1, _⟩ => exact (lhs_pass1a_1 _ _).trans hk)
  have er : dot_S400x10000_S10000x64_S400x64_1_0_0_1_n_n.rhsIdx (ValueIdx.ix2 p j) ((ValueIdx.contrEquiv1 dot_S400x10000_S10000x64_S400x64_1_0_0_1_n_n 10000 rfl rfl).symm k) = ValueIdx.ix2 k j := funext fun a => Fin.ext (by
    match a with
    | ⟨0, _⟩ => exact (rhs_pass1a_0 _ _).trans hk
    | ⟨1, _⟩ => exact rhs_pass1a_1 _ _)
  rw [el, er]

/-- The body's arithmetic at an entry: `relu (a · s) · w` of a `400 × 10000` block `a`, a `10000 × 64` block `s` and a
    `64 × 16` block `w` has at `(p, q)` the sum over `j` of `max (∑ k, a (p, k) * s (k, j)) 0` times `w (j, q)`. -/
theorem block_apply_pass1 (x0 : Vec Ideal S400x10000 .f32) (x1 : Vec Ideal S10000x64 .f32) (x2 : Vec Ideal S64x16 .f32)
    (p : Fin 400) (q : Fin 16) :
    k1_pay1 (F := Ideal) x0 x1 x2 (ValueIdx.ix2 p q)
      = ∑ j : Fin 64, max (∑ k : Fin 10000, x0 (ValueIdx.ix2 p k) * x1 (ValueIdx.ix2 k j)) 0 * x2 (ValueIdx.ix2 j q) := by
  unfold k1_pay1
  refine (Ideal.matmul_constant_zero_apply dot_S400x64_S64x16_S400x16_1_0_0_1_n_n none _ x2 (ValueIdx.ix2 p q)).trans ?_
  rw [← Equiv.sum_comp (ValueIdx.contrEquiv1 dot_S400x64_S64x16_S400x16_1_0_0_1_n_n 64 rfl rfl).symm]
  refine Finset.sum_congr rfl fun j _ => ?_
  have hj := ValueIdx.contrEquiv1_symm_val dot_S400x64_S64x16_S400x16_1_0_0_1_n_n 64 rfl rfl j
  have el : dot_S400x64_S64x16_S400x16_1_0_0_1_n_n.lhsIdx (ValueIdx.ix2 p q) ((ValueIdx.contrEquiv1 dot_S400x64_S64x16_S400x16_1_0_0_1_n_n 64 rfl rfl).symm j) = ValueIdx.ix2 p j := funext fun a => Fin.ext (by
    match a with
    | ⟨0, _⟩ => exact lhs_pass1b_0 _ _
    | ⟨1, _⟩ => exact (lhs_pass1b_1 _ _).trans hj)
  have er : dot_S400x64_S64x16_S400x16_1_0_0_1_n_n.rhsIdx (ValueIdx.ix2 p q) ((ValueIdx.contrEquiv1 dot_S400x64_S64x16_S400x16_1_0_0_1_n_n 64 rfl rfl).symm j) = ValueIdx.ix2 j q := funext fun a => Fin.ext (by
    match a with
    | ⟨0, _⟩ => exact (rhs_pass1b_0 _ _).trans hj
    | ⟨1, _⟩ => exact rhs_pass1b_1 _ _)
  rw [el, er]
  refine congrArg (· * x2 (ValueIdx.ix2 j q)) ?_
  rw [ValueIdx.maximumf_apply, ValueIdx.broadcast_apply, shapeCast_self]
  refine (congrArg (max · _) (inner_apply_pass1 x0 x1 p j)).trans ?_
  exact congrArg (max _) Ideal.ofBits_zero_f32

/-! ## The blocks the body reads, as parts of the arrays -/

theorem hz_pass1 : (![0, 0] : Fin 2 → Nat) = fun _ => 0 :=
  funext fun a => by match a with | ⟨0, _⟩ => rfl | ⟨1, _⟩ => rfl

/-- The block indices over the grid: point `t` takes block row `t` of `adj` and of `s2`, and the block `(0, 0)`, which is
    the whole array, of `s1` and of `W2`. -/
theorem idx_pass1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of `adj`'s block at point `t` is row `400 t + p` of `adj`. -/
theorem adj_block_apply_pass1 (c : Dev nD) (t : Fin cfg1.N) (y : S400x10000.Idx) (i : S10000x10000.Idx)
    (h0 : (i 0).val = 400 * t.val + (y 0).val) (h1 : (i 1).val = (y 1).val) :
    (iblk1 V c 0 t : Vec Ideal S400x10000 .f32) y = (V c main_arg1 : S10000x10000.Idx → EReal) i := by
  obtain ⟨e0, e1, -⟩ := idx_pass1 t
  unfold iblk1
  rw [View.read_apply]
  show V c main_arg1 _ = V c main_arg1 _
  refine congrArg (V c main_arg1) ?_
  funext a
  apply Fin.ext
  match a with
  | ⟨0, _⟩ => show win1_0.index t (0 : Fin 2) * 400 + 1 * (y 0).val = (i 0).val; omega
  | ⟨1, _⟩ => show win1_0.index t (1 : Fin 2) * 10000 + 1 * (y 1).val = (i 1).val; omega

/-- `s1`'s block at any point is all of `s1`. -/
theorem s1_block_eq_pass1 (c : Dev nD) (t : Fin cfg1.N) :
    (iblk1 V c 1 t : Vec Ideal S10000x64 .f32) = (V c main_v0 : S10000x64.Idx → EReal) := by
  obtain ⟨-, -, e0, e1, -⟩ := idx_pass1 t
  funext y
  unfold iblk1
  rw [View.read_apply]
  show V c main_v0 _ = V c main_v0 _
  refine congrArg (V c main_v0) ?_
  funext a
  apply Fin.ext
  match a with
  | ⟨0, _⟩ => show win1_1.index t (0 : Fin 2) * 10000 + 1 * (y 0).val = (y 0).val; omega
  | ⟨1, _⟩ => show win1_1.index t (1 : Fin 2) * 64 + 1 * (y 1).val = (y 1).val; omega

/-- `W2`'s block at any point is all of `W2`. -/
theorem w2_block_eq_pass1 (c : Dev nD) (t : Fin cfg1.N) :
    (iblk1 V c 2 t : Vec Ideal S64x16 .f32) = (V c main_arg3 : S64x16.Idx → EReal) := by
  obtain ⟨-, -, -, -, e0, e1, -⟩ := idx_pass1 t
  funext y
  unfold iblk1
  rw [View.read_apply]
  show V c main_arg3 _ = V c main_arg3 _
  refine congrArg (V c main_arg3) ?_
  funext a
  apply Fin.ext
  match a with
  | ⟨0, _⟩ => show win1_2.index t (0 : Fin 2) * 64 + 1 * (y 0).val = (y 0).val; omega
  | ⟨1, _⟩ => show win1_2.index t (1 : Fin 2) * 16 + 1 * (y 1).val = (y 1).val; omega

/-! ## What one point writes -/

/-- The body's result at an entry, when its left block is rows `400 n …` of a matrix `A` and its other two blocks are
    whole matrices `S` and `W`: the entry `(p, q)` is the entry `(400 n + p, q)` of `relu (A · S) · W`. Row `400 n + p` of
    `A · S` uses only row `400 n + p` of `A`, which is row `p` of the block. -/
theorem entry_pass1 (A : Spec.Mat 10000 10000) (S : Spec.Mat 10000 64) (W : Spec.Mat 64 16)
    (x0 : Vec Ideal S400x10000 .f32) (x1 : Vec Ideal S10000x64 .f32) (x2 : Vec Ideal S64x16 .f32) (n : ℕ)
    (h0 : ∀ (y : S400x10000.Idx) (i : S10000x10000.Idx), (i 0).val = 400 * n + (y 0).val → (i 1).val = (y 1).val → x0 y = A i)
    (h1 : x1 = S) (h2 : x2 = W) (y : S400x16.Idx) (i : S10000x16.Idx)
    (hi0 : (i 0).val = 400 * n + (y 0).val) (hi1 : (i 1).val = (y 1).val) :
    k1_pay1 (F := Ideal) x0 x1 x2 y = Spec.mm (Spec.relu (Spec.mm A S)) W i := by
  subst h1 h2
  obtain ⟨p, q, rfl⟩ : ∃ (p : Fin 400) (q : Fin 16), y = ValueIdx.ix2 p q := ⟨y 0, y 1, ValueIdx.eq_ix2 y⟩
  have hq : Spec.col i = q := Fin.ext hi1
  have ha : ∀ k : Fin 10000, x0 (ValueIdx.ix2 p k) = A (ValueIdx.ix2 (Spec.row i) k) := fun k => h0 _ _ hi0 rfl
  rw [block_apply_pass1]
  subst hq
  simp only [ha]
  rfl

/-- `relu (adj · s1) · W2` of the arrays as the region finds them. -/
abbrev result_pass1 (c : Dev nD) : Spec.Mat 10000 16 :=
  Spec.mm (Spec.relu (Spec.mm (V c main_arg1 : Spec.Mat 10000 10000) (V c main_v0 : Spec.Mat 10000 64))) (V c main_arg3 : Spec.Mat 64 16)

/-- What point `t` writes back is rows `400 t … 400 t + 399` of `relu (adj · s1) · W2`. -/
theorem flushed_pass1 (c : Dev nD) (t : Fin cfg1.N) :
    (dat1 V c).flushed 3 t = ((cfg1.win 3).blk t).view.read (Elt Ideal) (result_pass1 V c) := by
  show (cfg1.win 3).cut (cfg1.grid.coords t) ((dat1 V c).after 3 t) = _
  rw [after1_3]
  unfold out1_3
  rw [View.canon_unit_zero hz_pass1]
  simp only [View.ld_unit_zero (S := S400x10000) hz_pass1, View.ld_unit_zero (S := S10000x64) hz_pass1, View.ld_unit_zero (S := S64x16) hz_pass1]
  obtain ⟨-, -, -, -, -, -, e0, e1⟩ := idx_pass1 t
  funext j
  rw [View.read_apply]
  show k1_pay1 (F := Ideal) (iblk1 V c 0 t) (iblk1 V c 1 t) (iblk1 V c 2 t) ((cfg1.win 3).xinj (cfg1.grid.coords t) j) = result_pass1 V c (((cfg1.win 3).blk t).view.emb j)
  refine entry_pass1 (V c main_arg1) (V c main_v0) (V c main_arg3) (iblk1 V c 0 t) (iblk1 V c 1 t) (iblk1 V c 2 t) t.val
    (fun y i h0 h1 => adj_block_apply_pass1 V c t y i h0 h1) (s1_block_eq_pass1 V c t) (w2_block_eq_pass1 V c t)
    ((cfg1.win 3).xinj (cfg1.grid.coords t) j) (((cfg1.win 3).blk t).view.emb j) ?_ ?_
  · show win1_3.index t (0 : Fin 2) * 400 + 1 * (j 0).val = 400 * t.val + (j 0).val; omega
  · show win1_3.index t (1 : Fin 2) * 16 + 1 * (j 1).val = (j 1).val; omega

/-! ## The 25 blocks tile the rows of `s2` -/

/-- An entry of `s2` is in point `t`'s block iff its row is one of `400 t … 400 t + 399` (its column is any of the 16). -/
theorem mem_blk_pass1 (t : Fin cfg1.N) (i : S10000x16.Idx) :
    i ∈ ((cfg1.win 3).blk t).view.set ↔ ∀ a : Fin 2, win1_3.index t a * S400x16.size a ≤ (i a).val ∧ (i a).val < win1_3.index t a * S400x16.size a + S400x16.size a := by
  show i ∈ ((View.whole main_v1).slice (win1_3.rect t)).set ↔ _
  rw [View.set_slice_whole, Rect.mem_set_unit]
  exact Iff.rfl

/-- Row `r` of `s2` lies in the block of point `r / 400`, and every point writes its block back. -/
theorem cover_pass1 (i : S10000x16.Idx) :
    ∃ t : Fin cfg1.N, (cfg1.win 3).flush t = true ∧ i ∈ ((cfg1.win 3).blk t).view.set := by
  have hi0 : (i 0).val < 10000 := (i 0).isLt
  have hi1 : (i 1).val < 16 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, e0, e1⟩ := idx_pass1 t
  refine ⟨t, flush1_3 t, ?_⟩
  rw [mem_blk_pass1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 16 ≤ (i 1).val ∧ (i 1).val < win1_3.index t (1 : Fin 2) * 16 + 16; omega

/-- After the region's last point the output array is `relu (adj · s1) · W2` of the input arrays as the region found them. -/
theorem final1 (c : Dev nD) :
    ((dat1 V c).arrAt 3 cfg1.N : Spec.Mat 10000 16) = Spec.mm (Spec.relu (Spec.mm (V c main_arg1 : Spec.Mat 10000 10000) (V c main_v0 : Spec.Mat 10000 64))) (V c main_arg3 : Spec.Mat 64 16) :=
  (dat1 V c).arrAt_eq_of_cover 3 (result_pass1 V c) (fun t _ => flushed_pass1 V c t) cover_pass1

end Cert.KernelIdeal.Hand

end
-- ==== Proof.Val.B2.lean ====
/-
  What the third region writes: after its 25 points, the array `z` holds `relu (adj · s2)`.
-/
import proofs.«103521_g52742198395357_cont_9to1_m_1401_3_alg».proof.Proof.KI.R2
import proofs.«103521_g52742198395357_cont_9to1_m_1401_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's arithmetic at an index -/

theorem lhs0_pass2 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs1_pass2 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs0_pass2 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs1_pass2 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- Entry `(p, q)` of the body's result: row `p` of the loaded rows of `adj` against column `q` of `s2`, then the
    maximum with zero. -/
theorem payload_apply_pass2 (x0 : FVec Ideal S400x10000 .f32) (x1 : FVec Ideal S10000x16 .f32) (p : Fin 400) (q : Fin 16) :
    k2_pay1 (F := Ideal) x0 x1 (ValueIdx.ix2 p q) = max (∑ k : Fin 10000, x0 (ValueIdx.ix2 p k) * x1 (ValueIdx.ix2 k q)) 0 := by
  unfold k2_pay1
  rw [shapeCast_self]
  show max (FloatOps.matmul dot_S400x10000_S10000x16_S400x16_1_0_0_1_n_n none x0 x1 (constant S400x16 .f32 0x00000000#32) (ValueIdx.ix2 p q))
      (Ideal.ofBits .f32 0x00000000#32) = _
  rw [Ideal.matmul_constant_zero_apply, Ideal.ofBits_zero_f32,
    ← Equiv.sum_comp (ValueIdx.contrEquiv1 dot_S400x10000_S10000x16_S400x16_1_0_0_1_n_n 10000 rfl rfl).symm]
  refine congrArg (fun s => max s 0) (Finset.sum_congr rfl fun k _ => ?_)
  have hk := ValueIdx.contrEquiv1_symm_val dot_S400x10000_S10000x16_S400x16_1_0_0_1_n_n 10000 rfl rfl k
  have el : dot_S400x10000_S10000x16_S400x16_1_0_0_1_n_n.lhsIdx (ValueIdx.ix2 p q) ((ValueIdx.contrEquiv1 dot_S400x10000_S10000x16_S400x16_1_0_0_1_n_n 10000 rfl rfl).symm k) = ValueIdx.ix2 p k := funext fun a => Fin.ext (by
    match a with
    | ⟨0, _⟩ => exact lhs0_pass2 _ _
    | ⟨1, _⟩ => exact (lhs1_pass2 _ _).trans hk)
  have er : dot_S400x10000_S10000x16_S400x16_1_0_0_1_n_n.rhsIdx (ValueIdx.ix2 p q) ((ValueIdx.contrEquiv1 dot_S400x10000_S10000x16_S400x16_1_0_0_1_n_n 10000 rfl rfl).symm k) = ValueIdx.ix2 k q := funext fun a => Fin.ext (by
    match a with
    | ⟨0, _⟩ => exact (rhs0_pass2 _ _).trans hk
    | ⟨1, _⟩ => exact rhs1_pass2 _ _)
  rw [el, er]

variable (V : (c : Dev nD) → (b : Ref sig .tc) → Buf (Elt Ideal) ((c : Thread nD τ).loc b))

/-! ## The blocks: which rows of which array -/

theorem zero_offsets2 : (![0, 0] : Fin 2 → Nat) = fun _ => 0 := funext fun a => by fin_cases a <;> rfl

/-- The windows' block indices over the grid: at point `t` the window on `adj` and the window on `z` are at block row
    `t`, block column `0`; the window on `s2` stays at block `(0, 0)`. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of `adj` at point `t` is rows `400 t … 400 t + 399` of `adj`, all columns. -/
theorem adjBlock_apply_pass2 (c : Dev nD) (t : Fin cfg2.N) (p : Fin 400) (k : Fin 10000) (r : Fin 10000) (hr : r.val = 400 * t.val + p.val) :
    (iblk2 V c 0 t : Vec Ideal S400x10000 .f32) (ValueIdx.ix2 p k) = (V c main_arg1 : S10000x10000.Idx → EReal) (ValueIdx.ix2 r k) := by
  obtain ⟨e0, e1, -, -, -, -⟩ := block_indices2 t
  unfold iblk2
  rw [View.read_apply]
  show V c main_arg1 _ = V c main_arg1 _
  congr 1
  funext a
  apply Fin.ext
  match a with
  | ⟨0, _⟩ => show win2_0.index t 0 * 400 + 1 * p.val = r.val; rw [e0, hr]; omega
  | ⟨1, _⟩ => show win2_0.index t 1 * 10000 + 1 * k.val = k.val; rw [e1]; omega

/-- The block of `s2` at every point is all of `s2`. -/
theorem s2Block_apply_pass2 (c : Dev nD) (t : Fin cfg2.N) (k : Fin 10000) (q : Fin 16) :
    (iblk2 V c 1 t : Vec Ideal S10000x16 .f32) (ValueIdx.ix2 k q) = (V c main_v1 : S10000x16.Idx → EReal) (ValueIdx.ix2 k q) := by
  obtain ⟨-, -, e0, e1, -, -⟩ := block_indices2 t
  unfold iblk2
  rw [View.read_apply]
  show V c main_v1 _ = V c main_v1 _
  congr 1
  funext a
  apply Fin.ext
  match a with
  | ⟨0, _⟩ => show win2_1.index t 0 * 10000 + 1 * k.val = k.val; rw [e0]; omega
  | ⟨1, _⟩ => show win2_1.index t 1 * 16 + 1 * q.val = q.val; rw [e1]; omega

/-! ## One point's write-back, and the whole array -/

/-- Over any blocks that are rows `400 T …` of `adj` and all of `s`: the body's result at `j` is `relu (adj · s)` at
    the index `400 T` rows further down. -/
theorem rows_relu_mm_pass2 (adj : Spec.Mat 10000 10000) (s : Spec.Mat 10000 16) (x0 : FVec Ideal S400x10000 .f32) (x1 : FVec Ideal S10000x16 .f32) (T : ℕ)
    (h0 : ∀ (p : Fin 400) (k : Fin 10000) (r : Fin 10000), r.val = 400 * T + p.val → x0 (ValueIdx.ix2 p k) = adj (ValueIdx.ix2 r k))
    (h1 : ∀ (k : Fin 10000) (q : Fin 16), x1 (ValueIdx.ix2 k q) = s (ValueIdx.ix2 k q))
    (j : S400x16.Idx) (i : S10000x16.Idx) (hi0 : (i 0).val = 400 * T + (j 0).val) (hi1 : (i 1).val = (j 1).val) :
    k2_pay1 (F := Ideal) x0 x1 j = Spec.relu (Spec.mm adj s) i := by
  obtain ⟨p, q, rfl⟩ : ∃ (p : Fin 400) (q : Fin 16), j = ValueIdx.ix2 p q := ⟨j 0, j 1, ValueIdx.eq_ix2 j⟩
  rw [payload_apply_pass2]
  unfold Spec.relu Spec.mm
  refine congrArg (fun s => max s 0) (Finset.sum_congr rfl fun k _ => ?_)
  have hq : Spec.col i = q := Fin.ext hi1
  rw [h0 p k (Spec.row i) hi0, h1, hq]

/-- What point `t` writes back is its block — rows `400 t … 400 t + 399` — of `relu (adj · s2)`. -/
theorem flushed2_eq (c : Dev nD) (t : Fin cfg2.N) :
    (dat2 V c).flushed 2 t = ((cfg2.win 2).blk t).view.read (Elt Ideal)
      (Spec.relu (Spec.mm (V c main_arg1 : Spec.Mat 10000 10000) (V c main_v1 : Spec.Mat 10000 16))) := by
  show (cfg2.win 2).cut (cfg2.grid.coords t) ((dat2 V c).after 2 t) = _
  rw [after2_2]
  unfold out2_2
  rw [View.canon_unit_zero zero_offsets2]
  simp only [View.ld_unit_zero (S := S400x10000) zero_offsets2, View.ld_unit_zero (S := S10000x16) zero_offsets2]
  obtain ⟨-, -, -, -, e0, e1⟩ := block_indices2 t
  funext j
  rw [View.read_apply]
  exact rows_relu_mm_pass2 (V c main_arg1) (V c main_v1) (iblk2 V c 0 t) (iblk2 V c 1 t) t.val
    (fun p k r hr => adjBlock_apply_pass2 V c t p k r hr) (fun k q => s2Block_apply_pass2 V c t k q) j (((cfg2.win 2).blk t).view.emb j)
    (by show win2_2.index t 0 * 400 + 1 * (j 0).val = 400 * t.val + (j 0).val; rw [e0]; omega)
    (by show win2_2.index t 1 * 16 + 1 * (j 1).val = (j 1).val; rw [e1]; omega)

/-- An index of `z` is in point `t`'s block iff each coordinate is in the block's range on its axis. -/
theorem mem_block2 (t : Fin cfg2.N) (i : S10000x16.Idx) :
    i ∈ ((cfg2.win 2).blk t).view.set ↔ ∀ a : Fin 2, win2_2.index t a * S400x16.size a ≤ (i a).val ∧ (i a).val < win2_2.index t a * S400x16.size a + S400x16.size a := by
  show i ∈ ((View.whole main_v2).slice (win2_2.rect t)).set ↔ _
  rw [View.set_slice_whole, Rect.mem_set_unit]
  exact Iff.rfl

/-- The 25 blocks of 400 rows tile the 10000 rows: row `r` lies in the block of point `r / 400`. -/
theorem cover2 (i : S10000x16.Idx) : ∃ t : Fin cfg2.N, (cfg2.win 2).flush t = true ∧ i ∈ ((cfg2.win 2).blk t).view.set := by
  have hi0 : (i 0).val < 10000 := (i 0).isLt
  have hi1 : (i 1).val < 16 := (i 1).isLt
  have hN : cfg2.N = 25 := N_2
  have ht : (i 0).val / 400 < cfg2.N := by rw [hN]; omega
  obtain ⟨-, -, -, -, e0, e1⟩ := block_indices2 ⟨(i 0).val / 400, ht⟩
  refine ⟨⟨(i 0).val / 400, ht⟩, flush2_2 _, ?_⟩
  rw [mem_block2]
  intro a
  match a with
  | ⟨0, _⟩ =>
    show win2_2.index ⟨(i 0).val / 400, ht⟩ 0 * 400 ≤ (i 0).val ∧ (i 0).val < win2_2.index ⟨(i 0).val / 400, ht⟩ 0 * 400 + 400
    rw [e0]; show (i 0).val / 400 * 400 ≤ (i 0).val ∧ (i 0).val < (i 0).val / 400 * 400 + 400; omega
  | ⟨1, _⟩ =>
    show win2_2.index ⟨(i 0).val / 400, ht⟩ 1 * 16 ≤ (i 1).val ∧ (i 1).val < win2_2.index ⟨(i 0).val / 400, ht⟩ 1 * 16 + 16
    rw [e1]; omega

/-- After the region's last point the output array is `relu (adj · s2)` of the input arrays as the region found them. -/
theorem final2 (c : Dev nD) :
    ((dat2 V c).arrAt 2 cfg2.N : Spec.Mat 10000 16) = Spec.relu (Spec.mm (V c main_arg1 : Spec.Mat 10000 10000) (V c main_v1 : Spec.Mat 10000 16)) :=
  (dat2 V c).arrAt_eq_of_cover 2 _ (fun t _ => flushed2_eq V c t) cover2

end Cert.KernelIdeal.Hand

end
-- ==== Proof.Val.B3.lean ====
/-
  What the fourth region writes: after its 25 points, the array `a_bar` holds `z · zᵀ`.

  Point `t` of the grid takes rows `400 t … 400 t + 399` of `z` as a `400 × 16` block and the whole of `z` as a
  `10000 × 16` block, and multiplies the first by the transpose of the second: both blocks are summed over along
  their second axis, so the entry at `(p, q)` of the `400 × 10000` result is the sum over `k` of the first
  block's `(p, k)` times the second block's `(q, k)`. Row `p` of the first block is row `400 t + p` of `z` and row
  `q` of the second is row `q` of `z`, so what point `t` writes at `(p, q)` is the entry at `(400 t + p, q)` of
  `z · zᵀ`. Every row `r` of `a_bar` lies in the block of exactly one point, `r / 400`, and `r / 400` is below 25
  because `r` is below ten thousand, so the 25 write-backs together leave `z · zᵀ` in every entry, whatever `a_bar`
  held before. That the two blocks are read off one and the same array changes nothing: the value only reads `z` as the
  region found it.
-/
import proofs.«103521_g52742198395357_cont_9to1_m_1401_3_alg».proof.Proof.KI.R3
import proofs.«103521_g52742198395357_cont_9to1_m_1401_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The product of a block with a transposed block, entry by entry

Both operands are summed over along their axis 1. The left operand's axis 0 is the result's axis 0; the right
operand's axis 0, the only other axis that is kept, is the result's axis 1. -/

/-- The left operand is read at the entry's own row, -/
theorem lhs_zzT_0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
  rfl
/-- and at the summation index as its column; -/
theorem lhs_zzT_1 (i : S400x10000.Idx) (q : dot_S400x16_S10000x16_S400x10000_1_1_0_0_n_n.contr.Idx) :
    (dot_S400x16_S10000x16_S400x10000_1_1_0_0_n_n.lhsIdx i q 1).val = (q ⟨0, by decide⟩).val :=
  dot_S400x16_S10000x16_S400x10000_1_1_0_0_n_n.lhsIdx_val_of_single rfl i q
/-- the right operand at the entry's COLUMN as its row (it enters the product transposed), -/
theorem rhs_zzT_0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
  rfl
/-- and at the summation index as its column. -/
theorem rhs_zzT_1 (i : S400x10000.Idx) (q : dot_S400x16_S10000x16_S400x10000_1_1_0_0_n_n.contr.Idx) :
    (dot_S400x16_S10000x16_S400x10000_1_1_0_0_n_n.rhsIdx i q 1).val = (q ⟨0, by decide⟩).val :=
  dot_S400x16_S10000x16_S400x10000_1_1_0_0_n_n.rhsIdx_val_of_single rfl i q

/-- The body's arithmetic at an entry: the product into a zero accumulator of a `400 × 16` block with the transpose of
    a `10000 × 16` block has at `(p, q)` the sum over `k` of the first block's `(p, k)` times the second block's
    `(q, k)`. -/
theorem zzT_block_apply (x0 : Vec Ideal S400x16 .f32) (x1 : Vec Ideal S10000x16 .f32) (p : Fin 400) (q : Fin 10000) :
    k3_pay1 (F := Ideal) x0 x1 (ValueIdx.ix2 p q) = ∑ k : Fin 16, x0 (ValueIdx.ix2 p k) * x1 (ValueIdx.ix2 q k) := by
  unfold k3_pay1
  simp only [shapeCast_self]
  refine (Ideal.matmul_constant_zero_apply dot_S400x16_S10000x16_S400x10000_1_1_0_0_n_n none x0 x1 (ValueIdx.ix2 p q)).trans ?_
  rw [← Equiv.sum_comp (ValueIdx.contrEquiv1 dot_S400x16_S10000x16_S400x10000_1_1_0_0_n_n 16 rfl rfl).symm]
  refine Finset.sum_congr rfl fun k _ => ?_
  have hk := ValueIdx.contrEquiv1_symm_val dot_S400x16_S10000x16_S400x10000_1_1_0_0_n_n 16 rfl rfl k
  have el : dot_S400x16_S10000x16_S400x10000_1_1_0_0_n_n.lhsIdx (ValueIdx.ix2 p q) ((ValueIdx.contrEquiv1 dot_S400x16_S10000x16_S400x10000_1_1_0_0_n_n 16 rfl rfl).symm k) = ValueIdx.ix2 p k := funext fun a => Fin.ext (by
    match a with
    | ⟨0, _⟩ => exact lhs_zzT_0 _ _
    | ⟨1, _⟩ => exact (lhs_zzT_1 _ _).trans hk)
  have er : dot_S400x16_S10000x16_S400x10000_1_1_0_0_n_n.rhsIdx (ValueIdx.ix2 p q) ((ValueIdx.contrEquiv1 dot_S400x16_S10000x16_S400x10000_1_1_0_0_n_n 16 rfl rfl).symm k) = ValueIdx.ix2 q k := funext fun a => Fin.ext (by
    match a with
    | ⟨0, _⟩ => exact rhs_zzT_0 _ _
    | ⟨1, _⟩ => exact (rhs_zzT_1 _ _).trans hk)
  rw [el, er]

/-- An entry of the block product, given where the entry's row of the first block and the entry's column, as a row of
    the second block, sit in one matrix `Z`: if row `j 0` of the first block is row `row i` of `Z` and row `j 1` of the
    second block is row `col i` of `Z`, the block product at `j` is `Z · Zᵀ` at `i`. -/
theorem zzT_block_entry (Z : Spec.Mat 10000 16) (x0 : Vec Ideal S400x16 .f32) (x1 : Vec Ideal S10000x16 .f32)
    (j : S400x10000.Idx) (i : S10000x10000.Idx)
    (hx0 : ∀ k : Fin 16, x0 (ValueIdx.ix2 (j 0) k) = Z (ValueIdx.ix2 (Spec.row i) k))
    (hx1 : ∀ k : Fin 16, x1 (ValueIdx.ix2 (j 1) k) = Z (ValueIdx.ix2 (Spec.col i) k)) :
    k3_pay1 (F := Ideal) x0 x1 j = Spec.mmT Z Z i := by
  obtain ⟨p, q, rfl⟩ : ∃ (p : Fin 400) (q : Fin 10000), j = ValueIdx.ix2 p q := ⟨j 0, j 1, ValueIdx.eq_ix2 j⟩
  refine (zzT_block_apply x0 x1 p q).trans ?_
  exact Finset.sum_congr rfl fun k _ => congrArg₂ (· * ·) (hx0 k) (hx1 k)

/-! ## From the blocks to the array -/

theorem zero_offsets3 : (![0, 0] : Fin 2 → Nat) = fun _ => 0 := funext fun a => by fin_cases a <;> rfl

/-- The block indices over the grid: at point `t` the window of the rows of `z` and the window of `a_bar` are at
    block row `t`, block column `0`; the window of the whole of `z` is at block `(0, 0)`, the whole array. -/
theorem block_indices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `z · zᵀ`: rows `400 t …` of `z` times the transpose of all of `z`. -/
theorem flushed3_eq (c : Dev nD) (t : Fin cfg3.N) :
    (dat3 V c).flushed 2 t = ((cfg3.win 2).blk t).view.read (Elt Ideal) (Spec.mmT (V c main_v2 : Spec.Mat 10000 16) (V c main_v2 : Spec.Mat 10000 16)) := by
  show (cfg3.win 2).cut (cfg3.grid.coords t) ((dat3 V c).after 2 t) = _
  rw [after3_2]
  unfold out3_2
  rw [View.canon_unit_zero zero_offsets3]
  simp only [View.ld_unit_zero (S := S400x16) zero_offsets3, View.ld_unit_zero (S := S10000x16) zero_offsets3]
  obtain ⟨e00, e01, e10, e11, e20, e21⟩ := block_indices3 t
  funext j
  show k3_pay1 (F := Ideal) (iblk3 V c 0 t) (iblk3 V c 1 t) j = Spec.mmT (V c main_v2 : Spec.Mat 10000 16) (V c main_v2 : Spec.Mat 10000 16) (((cfg3.win 2).blk t).view.emb j)
  refine zzT_block_entry (V c main_v2) (iblk3 V c 0 t) (iblk3 V c 1 t) j (((cfg3.win 2).blk t).view.emb j) (fun k => ?_) (fun k => ?_)
  · show V c main_v2 (((cfg3.win 0).blk t).view.emb (ValueIdx.ix2 (j 0) k)) = V c main_v2 (ValueIdx.ix2 (Spec.row (((cfg3.win 2).blk t).view.emb j)) k)
    refine congrArg (V c main_v2) (funext fun a => Fin.ext ?_)
    match a with
    | ⟨0, _⟩ => show win3_0.index t (0 : Fin 2) * 400 + 1 * (j 0).val = win3_2.index t (0 : Fin 2) * 400 + 1 * (j 0).val; omega
    | ⟨1, _⟩ => show win3_0.index t (1 : Fin 2) * 16 + 1 * k.val = k.val; omega
  · show V c main_v2 (((cfg3.win 1).blk t).view.emb (ValueIdx.ix2 (j 1) k)) = V c main_v2 (ValueIdx.ix2 (Spec.col (((cfg3.win 2).blk t).view.emb j)) k)
    refine congrArg (V c main_v2) (funext fun a => Fin.ext ?_)
    match a with
    | ⟨0, _⟩ => show win3_1.index t (0 : Fin 2) * 10000 + 1 * (j 1).val = win3_2.index t (1 : Fin 2) * 10000 + 1 * (j 1).val; omega
    | ⟨1, _⟩ => show win3_1.index t (1 : Fin 2) * 16 + 1 * k.val = k.val; omega

/-- An entry of `a_bar` is in point `t`'s block iff each of its coordinates is in the block's range on that axis. -/
theorem mem_block3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

/-- The blocks cover `a_bar`: row `r` is in the block of point `r / 400`, which is below 25 because `r` is below ten
    thousand, and a block spans all ten thousand columns; every point writes its block back. -/
theorem cover3 (i : S10000x10000.Idx) : ∃ t : Fin cfg3.N, (cfg3.win 2).flush t = true ∧ i ∈ ((cfg3.win 2).blk t).view.set := by
  have hi0 : (i 0).val < 10000 := ValueIdx.idx2_lt0 i
  have hi1 : (i 1).val < 10000 := ValueIdx.idx2_lt1 i
  have hN : (i 0).val / 400 < grid3.N := by rw [N_3]; omega
  obtain ⟨t, ht⟩ : ∃ t : Fin cfg3.N, t.val = (i 0).val / 400 := ⟨⟨_, hN⟩, rfl⟩
  obtain ⟨-, -, -, -, e20, e21⟩ := block_indices3 t
  refine ⟨t, flush3_2 t, ?_⟩
  rw [mem_block3]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- After the region's last point the output array is `z · zᵀ` of the array `z` as the region found it. -/
theorem final3 (c : Dev nD) :
    ((dat3 V c).arrAt 2 cfg3.N : Spec.Mat 10000 10000) = Spec.mmT (V c main_v2 : Spec.Mat 10000 16) (V c main_v2 : Spec.Mat 10000 16) :=
  (dat3 V c).arrAt_eq_of_cover 2 (Spec.mmT (V c main_v2 : Spec.Mat 10000 16) (V c main_v2 : Spec.Mat 10000 16))
    (fun t _ => flushed3_eq V c t) cover3

end Cert.KernelIdeal.Hand

end
-- ==== Proof.Val.KernelValue.lean ====
/-
  What the idealized kernel computes. Along the run the intermediate arrays are, one after the other,
    s1 = x · W1,   s2 = relu (adj · s1) · W2,   z = relu (adj · s2),   a_bar = z · zᵀ,
  each region's output array being the specification's function of the arrays it read (the four region lemmas), and
  the arrays it read being the arguments as launched or an earlier region's output. So the run ends with the two
  results at `Spec.abarOf` and `Spec.zOf` of the four argument arrays, the arguments unchanged.
-/
import proofs.«103521_g52742198395357_cont_9to1_m_1401_3_alg».proof.Proof.KI.Run
import proofs.«103521_g52742198395357_cont_9to1_m_1401_3_alg».proof.Proof.Val.B0
import proofs.«103521_g52742198395357_cont_9to1_m_1401_3_alg».proof.Proof.Val.B1
import proofs.«103521_g52742198395357_cont_9to1_m_1401_3_alg».proof.Proof.Val.B2
import proofs.«103521_g52742198395357_cont_9to1_m_1401_3_alg».proof.Proof.Val.B3
import proofs.«103521_g52742198395357_cont_9to1_m_1401_3_alg».proof.Proof.Spec

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- The four arguments as launched, as matrices. -/
abbrev argX (c : Dev nD) : Mat 10000 128 := m ((c : Thread nD τ).loc main_arg0)
abbrev argAdj (c : Dev nD) : Mat 10000 10000 := m ((c : Thread nD τ).loc main_arg1)
abbrev argW1 (c : Dev nD) : Mat 128 64 := m ((c : Thread nD τ).loc main_arg2)
abbrev argW2 (c : Dev nD) : Mat 64 16 := m ((c : Thread nD τ).loc main_arg3)

/-- After the first region `s1 = x · W1`. -/
theorem s1_eq (c : Dev nD) : (V1 m c main_v0 : Mat 10000 64) = mm (argX m c) (argW1 m c) :=
  (W1_arr m c 2).trans (final0 (V0 m) c)

/-- After the second region `s2 = relu (adj · s1) · W2`. -/
theorem s2_eq (c : Dev nD) :
    (V2 m c main_v1 : Mat 10000 16) = mm (relu (mm (argAdj m c) (mm (argX m c) (argW1 m c)))) (argW2 m c) := by
  have h := (W2_arr m c 3).trans (final1 (V1 m) c)
  rw [V1_main_arg1, V1_main_arg3, s1_eq] at h
  exact h

/-- After the third region `z = relu (adj · s2)`. -/
theorem z_eq (c : Dev nD) : (V3 m c main_v2 : Mat 10000 16) = zOf (argX m c) (argAdj m c) (argW1 m c) (argW2 m c) := by
  have h := (W3_arr m c 2).trans (final2 (V2 m) c)
  rw [V2_main_arg1, V1_main_arg1, s2_eq] at h
  exact h

/-- After the fourth region `a_bar = z · zᵀ`. -/
theorem abar_eq (c : Dev nD) : (V4 m c main_v3 : Mat 10000 10000) = abarOf (argX m c) (argAdj m c) (argW1 m c) (argW2 m c) := by
  have h := (W4_out m c).trans (final3 (V3 m) c)
  rw [z_eq] at h
  exact h

/-- The fourth region leaves `z` as the third wrote it. -/
theorem z_final (c : Dev nD) : (V4 m c main_v2 : Mat 10000 16) = zOf (argX m c) (argAdj m c) (argW1 m c) (argW2 m c) :=
  (V4_main_v2 m c).trans (z_eq m c)

/-- THE VALUE RUN: every weakly fair execution of the idealized kernel terminates, nothing faulting, with its two
    results at the specification's functions of the arguments and the arguments unchanged. -/
theorem value_run : θ_run defs (onTc (τ := τ) (main (F := Ideal))) ⟨m, fun _ => 0, ρ⟩ (fun r => ∀ c : Dev nD,
      r.2.mem ((c.tc : Thread nD τ).loc main_v3) = abarOf (argX m c) (argAdj m c) (argW1 m c) (argW2 m c)
      ∧ r.2.mem ((c.tc : Thread nD τ).loc main_v2) = zOf (argX m c) (argAdj m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (abar_eq m c),
     (h c _ (mem_uc main_v2 (by decide))).trans (z_final m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run m ρ)

end Cert.KernelIdeal.Hand

end
-- ==== Proof.RefRead.lean ====
/-
  The reference program read one operation at a time: this module only gathers the reference's run and its
  read-at-an-index lemmas under one import.
-/
import proofs.«103521_g52742198395357_cont_9to1_m_1401_3_alg».proof.Proof.Gen.ReferenceIdeal.Run
import proofs.«103521_g52742198395357_cont_9to1_m_1401_3_alg».proof.Proof.Gen.ReferenceIdeal.Read
-- ==== Proof.RefValue.lean ====
/-
  The reference program computes the specification: read one operation at a time, its two results are
  `Spec.zOf` and `Spec.abarOf` of the four argument arrays.
-/
import proofs.«103521_g52742198395357_cont_9to1_m_1401_3_alg».proof.Proof.RefRead
import proofs.«103521_g52742198395357_cont_9to1_m_1401_3_alg».proof.Proof.Spec

noncomputable section

namespace Cert.RefValue

open Idealize.ShloMosaic Cert.ReferenceIdeal Cert.ReferenceIdeal.Read Cert.Spec

/-! ## The read indices of each product

A product `l · r` read at `i` takes `l` at `(row i, k)` and `r` at `(k, col i)`. -/

theorem lidx_v0 (i : S10000x64.Idx) (k : Fin 128) : lidx_main_v0 i k = ValueIdx.ix2 (row i) k := by
  funext a; match a with | ⟨0, _⟩ => rfl | ⟨1, _⟩ => rfl
theorem ridx_v0 (i : S10000x64.Idx) (k : Fin 128) : ridx_main_v0 i k = ValueIdx.ix2 k (col i) := by
  funext a; match a with | ⟨0, _⟩ => rfl | ⟨1, _⟩ => rfl
theorem lidx_v1 (i : S10000x64.Idx) (k : Fin 10000) : lidx_main_v1 i k = ValueIdx.ix2 (row i) k := by
  funext a; match a with | ⟨0, _⟩ => rfl | ⟨1, _⟩ => rfl
theorem ridx_v1 (i : S10000x64.Idx) (k : Fin 10000) : ridx_main_v1 i k = ValueIdx.ix2 k (col i) := by
  funext a; match a with | ⟨0, _⟩ => rfl | ⟨1, _⟩ => rfl
theorem lidx_v3 (i : S10000x16.Idx) (k : Fin 64) : lidx_main_v3 i k = ValueIdx.ix2 (row i) k := by
  funext a; match a with | ⟨0, _⟩ => rfl | ⟨1, _⟩ => rfl
theorem ridx_v3 (i : S10000x16.Idx) (k : Fin 64) : ridx_main_v3 i k = ValueIdx.ix2 k (col i) := by
  funext a; match a with | ⟨0, _⟩ => rfl | ⟨1, _⟩ => rfl
theorem lidx_v4 (i : S10000x16.Idx) (k : Fin 10000) : lidx_main_v4 i k = ValueIdx.ix2 (row i) k := by
  funext a; match a with | ⟨0, _⟩ => rfl | ⟨1, _⟩ => rfl
theorem ridx_v4 (i : S10000x16.Idx) (k : Fin 10000) : ridx_main_v4 i k = ValueIdx.ix2 k (col i) := by
  funext a; match a with | ⟨0, _⟩ => rfl | ⟨1, _⟩ => rfl
theorem lidx_v7 (i : S10000x10000.Idx) (k : Fin 16) : lidx_main_v7 i k = ValueIdx.ix2 (row i) k := by
  funext a; match a with | ⟨0, _⟩ => rfl | ⟨1, _⟩ => rfl
/-- The transposed operand of the last product, read at `(k, col i)`, is the untransposed one at `(col i, k)`. -/
theorem tidx_v7 (i : S10000x10000.Idx) (k : Fin 16) :
    idx_main_v6 (ridx_main_v7 i k) = ValueIdx.ix2 (col i) k := by
  funext a; match a with | ⟨0, _⟩ => rfl | ⟨1, _⟩ => rfl

/-! ## The products read at an index -/

theorem mm_apply {a k b : ℕ} (x : Mat a k) (w : Mat k b) (i : (⟨2, ![a, b]⟩ : Shape).Idx) :
    mm x w i = ∑ j : Fin k, x (ValueIdx.ix2 (row i) j) * w (ValueIdx.ix2 j (col i)) := rfl
theorem mmT_apply {a k b : ℕ} (x : Mat a k) (w : Mat b k) (i : (⟨2, ![a, b]⟩ : Shape).Idx) :
    mmT x w i = ∑ j : Fin k, x (ValueIdx.ix2 (row i) j) * w (ValueIdx.ix2 (col i) j) := rfl

/-! ## The broadcast zero -/

theorem zero0 (i : S10000x64.Idx) : val_main_call0_v0 (F := Ideal) i = 0 := by
  rw [val_main_call0_v0_apply, val_main_call0_cst_apply, Ideal.ofBits_def, Ideal.ofBits_zero_f32]
theorem zero1 (i : S10000x16.Idx) : val_main_call1_v0 (F := Ideal) i = 0 := by
  rw [val_main_call1_v0_apply, val_main_call1_cst_apply, Ideal.ofBits_def, Ideal.ofBits_zero_f32]

/-! ## Stage by stage -/

theorem stage0 (x0 : Mat 10000 128) (x2 : Mat 128 64) :
    val_main_v0 (F := Ideal) x0 x2 = mm x0 x2 := by
  funext i
  rw [val_main_v0_apply, mm_apply]
  exact Finset.sum_congr rfl fun k _ => by rw [lidx_v0, ridx_v0]

theorem stage1 (x0 : Mat 10000 128) (x1 : Mat 10000 10000) (x2 : Mat 128 64) :
    val_main_v1 (F := Ideal) x0 x1 x2 = mm x1 (mm x0 x2) := by
  funext i
  rw [val_main_v1_apply, stage0]
  conv_rhs => rw [mm_apply]
  exact Finset.sum_congr rfl fun k _ => by rw [lidx_v1, ridx_v1]

theorem stage2 (x0 : Mat 10000 128) (x1 : Mat 10000 10000) (x2 : Mat 128 64) :
    val_main_v2 (F := Ideal) x0 x1 x2 = relu (mm x1 (mm x0 x2)) := by
  funext i
  rw [val_main_v2_apply, Ideal.maximumf_def, zero0, stage1]
  rfl

theorem stage3 (x0 : Mat 10000 128) (x1 : Mat 10000 10000) (x2 : Mat 128 64) (x3 : Mat 64 16) :
    val_main_v3 (F := Ideal) x0 x1 x2 x3 = mm (relu (mm x1 (mm x0 x2))) x3 := by
  funext i
  rw [val_main_v3_apply, stage2]
  conv_rhs => rw [mm_apply]
  exact Finset.sum_congr rfl fun k _ => by rw [lidx_v3, ridx_v3]

theorem stage4 (x0 : Mat 10000 128) (x1 : Mat 10000 10000) (x2 : Mat 128 64) (x3 : Mat 64 16) :
    val_main_v4 (F := Ideal) x0 x1 x2 x3 = mm x1 (mm (relu (mm x1 (mm x0 x2))) x3) := by
  funext i
  rw [val_main_v4_apply, stage3]
  conv_rhs => rw [mm_apply]
  exact Finset.sum_congr rfl fun k _ => by rw [lidx_v4, ridx_v4]

/-- The reference's second result (the latent embedding) is `zOf` of the arguments. -/
theorem ref_z (x0 : Mat 10000 128) (x1 : Mat 10000 10000) (x2 : Mat 128 64) (x3 : Mat 64 16) :
    val_main_v5 (F := Ideal) x0 x1 x2 x3 = zOf x0 x1 x2 x3 := by
  funext i
  rw [val_main_v5_apply, Ideal.maximumf_def, zero1, stage4]
  rfl

/-- The reference's first result (the decoded adjacency) is `abarOf` of the arguments. -/
theorem ref_abar (x0 : Mat 10000 128) (x1 : Mat 10000 10000) (x2 : Mat 128 64) (x3 : Mat 64 16) :
    val_main_v7 (F := Ideal) x0 x1 x2 x3 = abarOf x0 x1 x2 x3 := by
  funext i
  rw [val_main_v7_apply]
  unfold abarOf
  rw [mmT_apply]
  refine Finset.sum_congr rfl fun k _ => ?_
  rw [val_main_v6_apply, tidx_v7, lidx_v7, ref_z]

end Cert.RefValue

end
-- ==== Proof.lean ====
/-
  The certificate of a graph auto-encoder's forward pass: a kernel of four pipelined matrix-product regions
    s1 = x · W1,   s2 = relu (adj · s1) · W2,   z = relu (adj · s2),   a_bar = z · zᵀ
  against the plain reference `z = relu (adj · (relu (adj · (x · W1)) · W2))`, `a_bar = z · zᵀ`.

  Over the extended reals both programs compute the same two functions of the four arguments, `Spec.abarOf` and
  `Spec.zOf`: every product is a finite sum of products of entries, the kernel's cut into row blocks of 2000 or 400
  rows and the reference's taken whole, and a finite sum in a commutative monoid does not depend on how its index set
  is cut; the last product contracts the second axis of `z` with the second axis of `z` in the kernel and the second
  axis of `z` with the first axis of `zᵀ` in the reference, which is the same sum; `relu` is the maximum with zero on
  both sides. No law that fails at the infinities is used, so the precondition is never opened.

  The frames: each kernel region is run by the pipeline's rule from the body's triple, the four regions one after
  the other from the launch, every argument array read back unchanged at the end (at the word level and at the
  extended reals alike); the reference is a straight line of host operations. The idealization rewrote no operation,
  so `preserves` asks nothing.
-/
import proofs.«103521_g52742198395357_cont_9to1_m_1401_3_alg».proof.Defs
import proofs.«103521_g52742198395357_cont_9to1_m_1401_3_alg».proof.Proof.Gen.Kernel
import proofs.«103521_g52742198395357_cont_9to1_m_1401_3_alg».proof.Proof.Gen.KernelIdeal
import proofs.«103521_g52742198395357_cont_9to1_m_1401_3_alg».proof.Proof.Gen.ReferenceIdeal
import proofs.«103521_g52742198395357_cont_9to1_m_1401_3_alg».proof.Proof.Gen.Pre_finite_inputs
import proofs.«103521_g52742198395357_cont_9to1_m_1401_3_alg».proof.Proof.K.Run
import proofs.«103521_g52742198395357_cont_9to1_m_1401_3_alg».proof.Proof.Val.KernelValue
import proofs.«103521_g52742198395357_cont_9to1_m_1401_3_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with `a_bar` and `z` at the specification's functions of the arguments. -/
theorem algebraic : Cert.algebraic_KernelIdeal_ReferenceIdeal := by
  intro m ρ m' ρ' _ hagree
  refine ⟨fun c => Cert.Spec.abarOf (Cert.KernelIdeal.Hand.argX m c) (Cert.KernelIdeal.Hand.argAdj m c) (Cert.KernelIdeal.Hand.argW1 m c) (Cert.KernelIdeal.Hand.argW2 m c),
    fun c => Cert.Spec.zOf (Cert.KernelIdeal.Hand.argX m c) (Cert.KernelIdeal.Hand.argAdj m c) (Cert.KernelIdeal.Hand.argW1 m c) (Cert.KernelIdeal.Hand.argW2 m c),
    Cert.KernelIdeal.Hand.value_run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v7_eq (F := Ideal) _ _ _ _).trans ((Cert.RefValue.ref_abar _ _ _ _).trans ?_))
    rw [(hagree c).1, (hagree c).2.1, (hagree c).2.2.1, (hagree c).2.2.2]
  · refine (h c).2.1.trans ((Cert.ReferenceIdeal.Read.val_main_v5_eq (F := Ideal) _ _ _ _).trans ((Cert.RefValue.ref_z _ _ _ _).trans ?_))
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
